-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x12288 : Shape := ⟨2, ![12288, 12288]⟩
abbrev S12288x16 : Shape := ⟨2, ![12288, 16]⟩
abbrev S16x256 : Shape := ⟨2, ![16, 256]⟩
abbrev S256 : Shape := ⟨1, ![256]⟩
abbrev S256x16 : Shape := ⟨2, ![256, 16]⟩
abbrev S16 : Shape := ⟨1, ![16]⟩
abbrev S1 : Shape := ⟨1, ![1]⟩
abbrev S_ : Shape := ⟨0, ![]⟩

class Facts : Prop where
  bcast_S_S12288x12288 : S_.BroadcastsInDim S12288x12288 (![] : Fin 0 → Fin S12288x12288.rank)
  reducesTo_S12288x12288_S_d0_1 : S12288x12288.ReducesTo [0, 1] S_
  h_S_ : 0 < S_.numel
  bcast_S_S12288x16 : S_.BroadcastsInDim S12288x16 (![] : Fin 0 → Fin S12288x16.rank)
  reducesTo_S12288x16_S_d0_1 : S12288x16.ReducesTo [0, 1] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x16 .f32) (main_arg5 : FVec F S16 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x16 .f32 := Host.absf main_arg4
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S12288x12288 .f32) (main_arg1 : FVec F S12288x16 .f32) (main_arg2 : FVec F S16x256 .f32) (main_arg3 : FVec F S256 .f32) (main_arg4 : FVec F S256x16 .f32) (main_arg5 : FVec F S16 .f32) (main_arg6 : FVec F S1 .f32) : IVec S_ 1 :=
  let main_v0 : FVec F S12288x12288 .f32 := Host.absf main_arg0
  let main_cst : FVec F S_ .f32 := constant S_ .f32 0x7F800000#32
  let main_v1 : FVec F S12288x12288 .f32 := broadcastInDim S12288x12288 ![] bcast_S_S12288x12288 main_cst
  let main_v2 : IVec S12288x12288 1 := cmpf .olt main_v0 main_v1
  let main_c : IVec S_ 1 := constantI S_ 1 1#1
  let main_v3 : IVec S_ 1 := (fun x v => Host.reduce IntOp.andi x v reducesTo_S12288x12288_S_d0_1 h_S_) main_v2 main_c
  let main_v4 : FVec F S12288x16 .f32 := Host.absf main_arg1
  let main_cst_0 : FVec F S_ .f32 := constant S_ .f32 0x7F800000#32
  let main_v5 : FVec F S12288x16 .f32 := broadcastInDim S12288x16 ![] bcast_S_S12288x16 main_cst_0
  let main_v6 : IVec S12288x16 1 := cmpf .olt main_v4 main_v5
  let main_c_1 : IVec S_ 1 := constantI S_ 1 1#1
  let main_v7 : IVec S_ 1 := (fun x v => Host.reduce IntOp.andi x v reducesTo_S12288x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S12288x12288 : Shape := ⟨2, ![12288, 12288]⟩
abbrev S12288x16 : Shape := ⟨2, ![12288, 16]⟩
abbrev S16x256 : Shape := ⟨2, ![16, 256]⟩
abbrev S256 : Shape := ⟨1, ![256]⟩
abbrev S256x16 : Shape := ⟨2, ![256, 16]⟩
abbrev S16 : Shape := ⟨1, ![16]⟩
abbrev S1 : Shape := ⟨1, ![1]⟩
abbrev S_ : Shape := ⟨0, ![]⟩
abbrev S12288x1 : Shape := ⟨2, ![12288, 1]⟩
abbrev S512x3072 : Shape := ⟨2, ![512, 3072]⟩
abbrev S512x1 : Shape := ⟨2, ![512, 1]⟩
abbrev S3072x1 : Shape := ⟨2, ![3072, 1]⟩
abbrev S12288 : Shape := ⟨1, ![12288]⟩
abbrev S12288x256 : Shape := ⟨2, ![12288, 256]⟩
abbrev S512x256 : Shape := ⟨2, ![512, 256]⟩
abbrev S3072x256 : Shape := ⟨2, ![3072, 256]⟩
abbrev S1x256 : Shape := ⟨2, ![1, 256]⟩
abbrev S512x16 : Shape := ⟨2, ![512, 16]⟩
abbrev S3072x16 : Shape := ⟨2, ![3072, 16]⟩
abbrev S1x16 : Shape := ⟨2, ![1, 16]⟩

abbrev nBuf : Space → Nat
  | .hbm => 72
  | .vmem => 18
  | .smem => 0
  | _ => 0

abbrev bufTy : (tb : Table) → Fin (tcTables nBuf tb) → BufTy
  | .hbm, ⟨0, _⟩ => ⟨S12288x12288, .f32⟩
  | .hbm, ⟨1, _⟩ => ⟨S12288x16, .f32⟩
  | .hbm, ⟨2, _⟩ => ⟨S16x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S1, .f32⟩
  | .hbm, ⟨7, _⟩ => ⟨S_, .f32⟩
  | .hbm, ⟨8, _⟩ => ⟨S12288x1, .f32⟩
  | .hbm, ⟨9, _⟩ => ⟨S12288x1, .f32⟩
  | .hbm, ⟨10, _⟩ => ⟨S12288, .f32⟩
  | .hbm, ⟨11, _⟩ => ⟨S_, .f32⟩
  | .hbm, ⟨12, _⟩ => ⟨S12288, .f32⟩
  | .hbm, ⟨13, _⟩ => ⟨S12288, .f32⟩
  | .hbm, ⟨14, _⟩ => ⟨S_, .f32⟩
  | .hbm, ⟨15, _⟩ => ⟨S12288, .f32⟩
  | .hbm, ⟨16, _⟩ => ⟨S12288, .i1⟩
  | .hbm, ⟨17, _⟩ => ⟨S12288, .f32⟩
  | .hbm, ⟨18, _⟩ => ⟨S_, .f32⟩
  | .hbm, ⟨19, _⟩ => ⟨S_, .f32⟩
  | .hbm, ⟨20, _⟩ => ⟨S12288, .f32⟩
  | .hbm, ⟨21, _⟩ => ⟨S12288, .f32⟩
  | .hbm, ⟨22, _⟩ => ⟨S12288x256, .f32⟩
  | .hbm, ⟨23, _⟩ => ⟨S12288x1, .f32⟩
  | .hbm, ⟨24, _⟩ => ⟨S12288x256, .f32⟩
  | .hbm, ⟨25, _⟩ => ⟨S12288x256, .f32⟩
  | .hbm, ⟨26, _⟩ => ⟨S12288x256, .f32⟩
  | .hbm, ⟨27, _⟩ => ⟨S12288x1, .f32⟩
  | .hbm, ⟨28, _⟩ => ⟨S12288x256, .f32⟩
  | .hbm, ⟨29, _⟩ => ⟨S12288x256, .f32⟩
  | .hbm, ⟨30, _⟩ => ⟨S12288, .f32⟩
  | .hbm, ⟨31, _⟩ => ⟨S12288x1, .f32⟩
  | .hbm, ⟨32, _⟩ => ⟨S12288x256, .f32⟩
  | .hbm, ⟨33, _⟩ => ⟨S12288x256, .f32⟩
  | .hbm, ⟨34, _⟩ => ⟨S12288x256, .f32⟩
  | .hbm, ⟨35, _⟩ => ⟨S1x256, .f32⟩
  | .hbm, ⟨36, _⟩ => ⟨S12288x256, .f32⟩
  | .hbm, ⟨37, _⟩ => ⟨S12288x256, .f32⟩
  | .hbm, ⟨38, _⟩ => ⟨S_, .f32⟩
  | .hbm, ⟨39, _⟩ => ⟨S12288x256, .f32⟩
  | .hbm, ⟨40, _⟩ => ⟨S12288x256, .f32⟩
  | .hbm, ⟨41, _⟩ => ⟨S12288x16, .f32⟩
  | .hbm, ⟨42, _⟩ => ⟨S12288x1, .f32⟩
  | .hbm, ⟨43, _⟩ => ⟨S12288x16, .f32⟩
  | .hbm, ⟨44, _⟩ => ⟨S12288x16, .f32⟩
  | .hbm, ⟨45, _⟩ => ⟨S12288x16, .f32⟩
  | .hbm, ⟨46, _⟩ => ⟨S12288x1, .f32⟩
  | .hbm, ⟨47, _⟩ => ⟨S12288x16, .f32⟩
  | .hbm, ⟨48, _⟩ => ⟨S12288x16, .f32⟩
  | .hbm, ⟨49, _⟩ => ⟨S12288, .f32⟩
  | .hbm, ⟨50, _⟩ => ⟨S12288x1, .f32⟩
  | .hbm, ⟨51, _⟩ => ⟨S12288x16, .f32⟩
  | .hbm, ⟨52, _⟩ => ⟨S12288x16, .f32⟩
  | .hbm, ⟨53, _⟩ => ⟨S12288x16, .f32⟩
  | .hbm, ⟨54, _⟩ => ⟨S1x16, .f32⟩
  | .hbm, ⟨55, _⟩ => ⟨S12288x16, .f32⟩
  | .hbm, ⟨56, _⟩ => ⟨S12288x16, .f32⟩
  | .hbm, ⟨57, _⟩ => ⟨S12288x16, .f32⟩
  | .hbm, ⟨58, _⟩ => ⟨S_, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S1x16, .f32⟩
  | .hbm, ⟨64, _⟩ => ⟨S12288x16, .f32⟩
  | .hbm, ⟨65, _⟩ => ⟨S12288x16, .f32⟩
  | .hbm, ⟨66, _⟩ => ⟨S12288x16, .f32⟩
  | .hbm, ⟨67, _⟩ => ⟨S_, .f32⟩
  | .hbm, ⟨68, _⟩ => ⟨S16, .f32⟩
  | .hbm, ⟨69, _⟩ => ⟨S1x16, .f32⟩
  | .hbm, ⟨70, _⟩ => ⟨S12288x16, .f32⟩
  | .hbm, ⟨71, _⟩ => ⟨S12288x16, .f32⟩
  | .local _ .vmem, ⟨0, _⟩ => ⟨S512x3072, .f32⟩
  | .local _ .vmem, ⟨1, _⟩ => ⟨S512x3072, .f32⟩
  | .local _ .vmem, ⟨2, _⟩ => ⟨S512x1, .f32⟩
  | .local _ .vmem, ⟨3, _⟩ => ⟨S512x1, .f32⟩
  | .local _ .vmem, ⟨4, _⟩ => ⟨S3072x1, .f32⟩
  | .local _ .vmem, ⟨5, _⟩ => ⟨S3072x1, .f32⟩
  | .local _ .vmem, ⟨6, _⟩ => ⟨S512x3072, .f32⟩
  | .local _ .vmem, ⟨7, _⟩ => ⟨S512x3072, .f32⟩
  | .local _ .vmem, ⟨8, _⟩ => ⟨S512x256, .f32⟩
  | .local _ .vmem, ⟨9, _⟩ => ⟨S512x256, .f32⟩
  | .local _ .vmem, ⟨10, _⟩ => ⟨S3072x256, .f32⟩
  | .local _ .vmem, ⟨11, _⟩ => ⟨S3072x256, .f32⟩
  | .local _ .vmem, ⟨12, _⟩ => ⟨S512x3072, .f32⟩
  | .local _ .vmem, ⟨13, _⟩ => ⟨S512x3072, .f32⟩
  | .local _ .vmem, ⟨14, _⟩ => ⟨S512x16, .f32⟩
  | .local _ .vmem, ⟨15, _⟩ => ⟨S512x16, .f32⟩
  | .local _ .vmem, ⟨16, _⟩ => ⟨S3072x16, .f32⟩
  | .local _ .vmem, ⟨17, _⟩ => ⟨S3072x16, .f32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_cst : Ref sig .tc := ⟨.hbm, 38, rfl⟩
abbrev main_call1_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3072x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 24], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x3072 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S3072x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bcast_S_S12288x1 : S_.BroadcastsInDim S12288x1 (![] : Fin 0 → Fin S12288x1.rank)
  inb_S3072x1_S3072x1_0_0 : ∀ a, (![0, 0] : Fin 2 → Nat) a + S3072x1.size a ≤ S3072x1.size a
  h_S3072x1 : 0 < S3072x1.numel
  inb_S512x3072_S512x3072_0_0 : ∀ a, (![0, 0] : Fin 2 → Nat) a + S512x3072.size a ≤ S512x3072.size a
  h_S512x3072 : 0 < S512x3072.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S3072x1_S3072x1 : S3072x1.ShapeCasts S3072x1
  shapeCasts_S12288x1_S12288 : S12288x1.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x256_0_1 : S12288x1.BroadcastsInDim S12288x256 (![0, 1] : Fin 2 → Fin S12288x256.rank)
  inb_S3072x256_S3072x256_0_0 : ∀ a, (![0, 0] : Fin 2 → Nat) a + S3072x256.size a ≤ S3072x256.size a
  h_S3072x256 : 0 < S3072x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S3072x256_S3072x256 : S3072x256.ShapeCasts S3072x256
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S_S12288x256 : S_.BroadcastsInDim S12288x256 (![] : Fin 0 → Fin S12288x256.rank)
  bcast_S12288x1_S12288x16_0_1 : S12288x1.BroadcastsInDim S12288x16 (![0, 1] : Fin 2 → Fin S12288x16.rank)
  inb_S3072x16_S3072x16_0_0 : ∀ a, (![0, 0] : Fin 2 → Nat) a + S3072x16.size a ≤ S3072x16.size a
  h_S3072x16 : 0 < S3072x16.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  shapeCasts_S3072x16_S3072x16 : S3072x16.ShapeCasts S3072x16
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  reducesTo_S12288x16_S16_d0 : S12288x16.ReducesTo [0] S16
  h_S_ : 0 < S_.numel
  bcast_S_S16 : S_.BroadcastsInDim S16 (![] : Fin 0 → Fin S16.rank)
  dot_S512x3072_S512x1_S3072x1_0_0_1_1_n_n_wf : DotDims.WF S512x3072 S512x1 S3072x1 [0] [0] [1] [1] [] []
  dot_S12288x16_S16x256_S12288x256_1_0_0_1_n_n_wf : DotDims.WF S12288x16 S16x256 S12288x256 [1] [0] [0] [1] [] []
  dot_S512x3072_S512x256_S3072x256_0_0_1_1_n_n_wf : DotDims.WF S512x3072 S512x256 S3072x256 [0] [0] [1] [1] [] []
  dot_S12288x256_S256x16_S12288x16_1_0_0_1_n_n_wf : DotDims.WF S12288x256 S256x16 S12288x16 [1] [0] [0] [1] [] []
  dot_S512x3072_S512x16_S3072x16_0_0_1_1_n_n_wf : DotDims.WF S512x3072 S512x16 S3072x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S12288x12288.size a
  hwx0_0 : ∀ i : grid0.Coords, EltTy.bits .f32 = 32 ∨ (Rect.block (s := S12288x12288) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S12288x1.size a
  hwx0_1 : ∀ i : grid0.Coords, EltTy.bits .f32 = 32 ∨ (Rect.block (s := S12288x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x1.size a ≤ S12288x1.size a
  hwx0_2 : ∀ i : grid0.Coords, EltTy.bits .f32 = 32 ∨ (Rect.block (s := S12288x1) S3072x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3072.size a ≤ S12288x12288.size a
  hwx1_0 : ∀ i : grid1.Coords, EltTy.bits .f32 = 32 ∨ (Rect.block (s := S12288x12288) S512x3072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S12288x256.size a
  hwx1_1 : ∀ i : grid1.Coords, EltTy.bits .f32 = 32 ∨ (Rect.block (s := S12288x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3072x256.size a ≤ S12288x256.size a
  hwx1_2 : ∀ i : grid1.Coords, EltTy.bits .f32 = 32 ∨ (Rect.block (s := S12288x256) S3072x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x3072.size a ≤ S12288x12288.size a
  hwx2_0 : ∀ i : grid2.Coords, EltTy.bits .f32 = 32 ∨ (Rect.block (s := S12288x12288) S512x3072.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x16.size a ≤ S12288x16.size a
  hwx2_1 : ∀ i : grid2.Coords, EltTy.bits .f32 = 32 ∨ (Rect.block (s := S12288x16) S512x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3072x16.size a ≤ S12288x16.size a
  hwx2_2 : ∀ i : grid2.Coords, EltTy.bits .f32 = 32 ∨ (Rect.block (s := S12288x16) S3072x16.size (cc2_transform_2 i) (hinb2_2 i)).WholeWords (EltTy.packing .f32)

variable [Facts₀]

def dot_S512x3072_S512x1_S3072x1_0_0_1_1_n_n : DotDims S512x3072 S512x1 S3072x1 where
  lhsContracting := [0]
  rhsContracting := [0]
  lhsNonContracting := [1]
  rhsNonContracting := [1]
  lhsBatch := []
  rhsBatch := []
  wf := dot_S512x3072_S512x1_S3072x1_0_0_1_1_n_n_wf
def dot_S12288x16_S16x256_S12288x256_1_0_0_1_n_n : DotDims S12288x16 S16x256 S12288x256 where
  lhsContracting := [1]
  rhsContracting := [0]
  lhsNonContracting := [0]
  rhsNonContracting := [1]
  lhsBatch := []
  rhsBatch := []
  wf := dot_S12288x16_S16x256_S12288x256_1_0_0_1_n_n_wf
def dot_S512x3072_S512x256_S3072x256_0_0_1_1_n_n : DotDims S512x3072 S512x256 S3072x256 where
  lhsContracting := [0]
  rhsContracting := [0]
  lhsNonContracting := [1]
  rhsNonContracting := [1]
  lhsBatch := []
  rhsBatch := []
  wf := dot_S512x3072_S512x256_S3072x256_0_0_1_1_n_n_wf
def dot_S12288x256_S256x16_S12288x16_1_0_0_1_n_n : DotDims S12288x256 S256x16 S12288x16 where
  lhsContracting := [1]
  rhsContracting := [0]
  lhsNonContracting := [0]
  rhsNonContracting := [1]
  lhsBatch := []
  rhsBatch := []
  wf := dot_S12288x256_S256x16_S12288x16_1_0_0_1_n_n_wf
def dot_S512x3072_S512x16_S3072x16_0_0_1_1_n_n : DotDims S512x3072 S512x16 S3072x16 where
  lhsContracting := [0]
  rhsContracting := [0]
  lhsNonContracting := [1]
  rhsNonContracting := [1]
  lhsBatch := []
  rhsBatch := []
  wf := dot_S512x3072_S512x16_S3072x16_0_0_1_1_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3072x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S3072x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S512x3072.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S512x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S3072x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12288x12288 : Shape := ⟨2, ![12288, 12288]⟩
abbrev S12288x16 : Shape := ⟨2, ![12288, 16]⟩
abbrev S16x256 : Shape := ⟨2, ![16, 256]⟩
abbrev S256 : Shape := ⟨1, ![256]⟩
abbrev S256x16 : Shape := ⟨2, ![256, 16]⟩
abbrev S16 : Shape := ⟨1, ![16]⟩
abbrev S1 : Shape := ⟨1, ![1]⟩
abbrev S_ : Shape := ⟨0, ![]⟩
abbrev S12288 : Shape := ⟨1, ![12288]⟩
abbrev S12288x256 : Shape := ⟨2, ![12288, 256]⟩
abbrev S12288x1 : Shape := ⟨2, ![12288, 1]⟩
abbrev S1x256 : Shape := ⟨2, ![1, 256]⟩
abbrev S1x16 : Shape := ⟨2, ![1, 16]⟩

abbrev nBuf : Space → Nat
  | .hbm => 67
  | .vmem => 0
  | .smem => 0
  | _ => 0

abbrev bufTy : (tb : Table) → Fin (tcTables nBuf tb) → BufTy
  | .hbm, ⟨0, _⟩ => ⟨S12288x12288, .f32⟩
  | .hbm, ⟨1, _⟩ => ⟨S12288x16, .f32⟩
  | .hbm, ⟨2, _⟩ => ⟨S16x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S1, .f32⟩
  | .hbm, ⟨7, _⟩ => ⟨S12288x12288, .i32⟩
  | .hbm, ⟨8, _⟩ => ⟨S12288x12288, .i32⟩
  | .hbm, ⟨9, _⟩ => ⟨S_, .i32⟩
  | .hbm, ⟨10, _⟩ => ⟨S12288x12288, .i32⟩
  | .hbm, ⟨11, _⟩ => ⟨S12288x12288, .i32⟩
  | .hbm, ⟨12, _⟩ => ⟨S12288x12288, .i1⟩
  | .hbm, ⟨13, _⟩ => ⟨S12288x12288, .f32⟩
  | .hbm, ⟨14, _⟩ => ⟨S12288x12288, .f32⟩
  | .hbm, ⟨15, _⟩ => ⟨S_, .f32⟩
  | .hbm, ⟨16, _⟩ => ⟨S12288, .f32⟩
  | .hbm, ⟨17, _⟩ => ⟨S_, .f32⟩
  | .hbm, ⟨18, _⟩ => ⟨S12288, .f32⟩
  | .hbm, ⟨19, _⟩ => ⟨S12288, .i1⟩
  | .hbm, ⟨20, _⟩ => ⟨S12288, .f32⟩
  | .hbm, ⟨21, _⟩ => ⟨S_, .f32⟩
  | .hbm, ⟨22, _⟩ => ⟨S_, .f32⟩
  | .hbm, ⟨23, _⟩ => ⟨S12288, .f32⟩
  | .hbm, ⟨24, _⟩ => ⟨S12288, .f32⟩
  | .hbm, ⟨25, _⟩ => ⟨S12288x256, .f32⟩
  | .hbm, ⟨26, _⟩ => ⟨S12288x1, .f32⟩
  | .hbm, ⟨27, _⟩ => ⟨S12288x12288, .f32⟩
  | .hbm, ⟨28, _⟩ => ⟨S12288x1, .f32⟩
  | .hbm, ⟨29, _⟩ => ⟨S12288x256, .f32⟩
  | .hbm, ⟨30, _⟩ => ⟨S12288x256, .f32⟩
  | .hbm, ⟨31, _⟩ => ⟨S12288x256, .f32⟩
  | .hbm, ⟨32, _⟩ => ⟨S12288x256, .f32⟩
  | .hbm, ⟨33, _⟩ => ⟨S12288x256, .f32⟩
  | .hbm, ⟨34, _⟩ => ⟨S1x256, .f32⟩
  | .hbm, ⟨35, _⟩ => ⟨S12288x256, .f32⟩
  | .hbm, ⟨36, _⟩ => ⟨S12288x256, .f32⟩
  | .hbm, ⟨37, _⟩ => ⟨S_, .f32⟩
  | .hbm, ⟨38, _⟩ => ⟨S12288x256, .f32⟩
  | .hbm, ⟨39, _⟩ => ⟨S12288x256, .f32⟩
  | .hbm, ⟨40, _⟩ => ⟨S12288x16, .f32⟩
  | .hbm, ⟨41, _⟩ => ⟨S12288x1, .f32⟩
  | .hbm, ⟨42, _⟩ => ⟨S12288x12288, .f32⟩
  | .hbm, ⟨43, _⟩ => ⟨S12288x1, .f32⟩
  | .hbm, ⟨44, _⟩ => ⟨S12288x16, .f32⟩
  | .hbm, ⟨45, _⟩ => ⟨S12288x16, .f32⟩
  | .hbm, ⟨46, _⟩ => ⟨S12288x16, .f32⟩
  | .hbm, ⟨47, _⟩ => ⟨S12288x16, .f32⟩
  | .hbm, ⟨48, _⟩ => ⟨S12288x16, .f32⟩
  | .hbm, ⟨49, _⟩ => ⟨S1x16, .f32⟩
  | .hbm, ⟨50, _⟩ => ⟨S12288x16, .f32⟩
  | .hbm, ⟨51, _⟩ => ⟨S12288x16, .f32⟩
  | .hbm, ⟨52, _⟩ => ⟨S12288x16, .f32⟩
  | .hbm, ⟨53, _⟩ => ⟨S_, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S1x16, .f32⟩
  | .hbm, ⟨59, _⟩ => ⟨S12288x16, .f32⟩
  | .hbm, ⟨60, _⟩ => ⟨S12288x16, .f32⟩
  | .hbm, ⟨61, _⟩ => ⟨S12288x16, .f32⟩
  | .hbm, ⟨62, _⟩ => ⟨S_, .f32⟩
  | .hbm, ⟨63, _⟩ => ⟨S16, .f32⟩
  | .hbm, ⟨64, _⟩ => ⟨S1x16, .f32⟩
  | .hbm, ⟨65, _⟩ => ⟨S12288x16, .f32⟩
  | .hbm, ⟨66, _⟩ => ⟨S12288x16, .f32⟩
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  reducesTo_S12288x12288_S12288_d0 : S12288x12288.ReducesTo [0] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  transposes_S12288x12288_S12288x12288_1_0 : S12288x12288.Transposes [1, 0] S12288x12288
  bcast_S12288x1_S12288x256_0_1 : S12288x1.BroadcastsInDim S12288x256 (![0, 1] : Fin 2 → Fin S12288x256.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S_S12288x256 : S_.BroadcastsInDim S12288x256 (![] : Fin 0 → Fin S12288x256.rank)
  bcast_S12288x1_S12288x16_0_1 : S12288x1.BroadcastsInDim S12288x16 (![0, 1] : Fin 2 → Fin S12288x16.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  reducesTo_S12288x16_S16_d0 : S12288x16.ReducesTo [0] S16
  bcast_S_S16 : S_.BroadcastsInDim S16 (![] : Fin 0 → Fin S16.rank)
  dot_S12288x16_S16x256_S12288x256_1_0_0_1_n_n_wf : DotDims.WF S12288x16 S16x256 S12288x256 [1] [0] [0] [1] [] []
  dot_S12288x12288_S12288x256_S12288x256_1_0_0_1_n_n_wf : DotDims.WF S12288x12288 S12288x256 S12288x256 [1] [0] [0] [1] [] []
  dot_S12288x256_S256x16_S12288x16_1_0_0_1_n_n_wf : DotDims.WF S12288x256 S256x16 S12288x16 [1] [0] [0] [1] [] []
  dot_S12288x12288_S12288x16_S12288x16_1_0_0_1_n_n_wf : DotDims.WF S12288x12288 S12288x16 S12288x16 [1] [0] [0] [1] [] []

variable [Facts₀]

def dot_S12288x16_S16x256_S12288x256_1_0_0_1_n_n : DotDims S12288x16 S16x256 S12288x256 where
  lhsContracting := [1]
  rhsContracting := [0]
  lhsNonContracting := [0]
  rhsNonContracting := [1]
  lhsBatch := []
  rhsBatch := []
  wf := dot_S12288x16_S16x256_S12288x256_1_0_0_1_n_n_wf
def dot_S12288x12288_S12288x256_S12288x256_1_0_0_1_n_n : DotDims S12288x12288 S12288x256 S12288x256 where
  lhsContracting := [1]
  rhsContracting := [0]
  lhsNonContracting := [0]
  rhsNonContracting := [1]
  lhsBatch := []
  rhsBatch := []
  wf := dot_S12288x12288_S12288x256_S12288x256_1_0_0_1_n_n_wf
def dot_S12288x256_S256x16_S12288x16_1_0_0_1_n_n : DotDims S12288x256 S256x16 S12288x16 where
  lhsContracting := [1]
  rhsContracting := [0]
  lhsNonContracting := [0]
  rhsNonContracting := [1]
  lhsBatch := []
  rhsBatch := []
  wf := dot_S12288x256_S256x16_S12288x16_1_0_0_1_n_n_wf
def dot_S12288x12288_S12288x16_S12288x16_1_0_0_1_n_n : DotDims S12288x12288 S12288x16 S12288x16 where
  lhsContracting := [1]
  rhsContracting := [0]
  lhsNonContracting := [0]
  rhsNonContracting := [1]
  lhsBatch := []
  rhsBatch := []
  wf := dot_S12288x12288_S12288x16_S12288x16_1_0_0_1_n_n_wf

class Facts : Prop extends Facts₀ where

variable [Facts]
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.GcnMath.lean ====
/-
  The mathematics the two programs share, over the extended reals, with no program in sight.

  A graph layer multiplies by the transpose of the adjacency matrix: entry (p, q) of Aᵀ·Y is the sum over the rows i of
  A (i, p) · Y (i, q). `atY` is that column-sum of products, for a right operand of any width.
-/
import Idealize.ShloMosaic.PureOps.Ideal
import Idealize.ShloMosaic.Lib.ValueIdx
import proofs.«127168_j18975165513738_1_alg».proof.Proof.LibFiniteOps

noncomputable section

namespace Cert.GcnMath

open Idealize.ShloMosaic Idealize.ShloMosaic.ValueIdx Idealize.ShloMosaic.FiniteOps
open scoped BigOperators

/-- Entry (p, q) of Aᵀ·Y: the sum over the rows `i` of `A (i, p) · Y (i, q)`. -/
def atY {D : Nat} (A : (⟨2, ![12288, 12288]⟩ : Shape).Idx → EReal) (Y : (⟨2, ![12288, D]⟩ : Shape).Idx → EReal) :
    (⟨2, ![12288, D]⟩ : Shape).Idx → EReal :=
  fun j => ∑ i : Fin 12288, A (ix2 i ⟨(j 0).val, idx2_lt0 j⟩) * Y (ix2 i ⟨(j 1).val, idx2_lt1 j⟩)

theorem atY_apply {D : Nat} (A : (⟨2, ![12288, 12288]⟩ : Shape).Idx → EReal) (Y : (⟨2, ![12288, D]⟩ : Shape).Idx → EReal)
    (p : Fin 12288) (q : Fin D) : atY A Y (ix2 p q) = ∑ i : Fin 12288, A (ix2 i p) * Y (ix2 i q) := rfl

end Cert.GcnMath

end
-- ==== Proof.KFun.lean ====
/-
  What the kernel's program computes, as one function of its six float arguments (the seventh is never read).

  Each of the three launches leaves Aᵀ·Y in its result array (`Cert.GcnMath.atY`); around them the host lines form the
  degree (the column sums of A, plus one for the self loop), its reciprocal square root where positive, and per layer
  dis ⊙ (Aᵀ·(dis ⊙ h)) + dis² ⊙ h + b with h the layer's dense transform; then a column-wise softmax.
-/
import proofs.«127168_j18975165513738_1_alg».proof.KernelIdeal
import proofs.«127168_j18975165513738_1_alg».proof.Proof.Gen.KernelIdeal
import proofs.«127168_j18975165513738_1_alg».proof.Proof.GcnMath

noncomputable section

namespace Cert.KernelIdeal.KFun

open Cert.KernelIdeal Cert.KernelIdeal.Gen Idealize.ShloMosaic Cert.GcnMath

/-- The all-ones column the degree pass multiplies by. -/
def ones : FVec Ideal S12288x1 .f32 :=
  broadcastInDim S12288x1 ![] bcast_S_S12288x1 (constant (F := Ideal) S_ .f32 0x3F800000#32)

/-- The in-degree with the self loop: column sums of A, plus one. -/
def deg (A : FVec Ideal S12288x12288 .f32) : FVec Ideal S12288 .f32 :=
  addf (shapeCast S12288 (atY A ones) shapeCasts_S12288x1_S12288)
    (broadcastInDim S12288 ![] bcast_S_S12288 (constant (F := Ideal) S_ .f32 0x3F800000#32))

/-- deg^(-1/2) where the degree is positive, zero elsewhere. -/
def dis (dg : FVec Ideal S12288 .f32) : FVec Ideal S12288 .f32 :=
  select (cmpf .ogt dg (broadcastInDim S12288 ![] bcast_S_S12288 (constant (F := Ideal) S_ .f32 0x00000000#32)))
    (Host.rsqrt dg)
    (broadcastInDim S12288 ![] bcast_S_S12288 (id (constant (F := Ideal) S_ .f32 0x00000000#32)))

/-- A per-node vector as a column repeated across 256, respectively 16, features. -/
def col256 (d : FVec Ideal S12288 .f32) : FVec Ideal S12288x256 .f32 :=
  broadcastInDim S12288x256 ![0, 1] bcast_S12288x1_S12288x256_0_1 (broadcastInDim S12288x1 ![0] bcast_S12288_S12288x1_0 d)
def col16 (d : FVec Ideal S12288 .f32) : FVec Ideal S12288x16 .f32 :=
  broadcastInDim S12288x16 ![0, 1] bcast_S12288x1_S12288x16_0_1 (broadcastInDim S12288x1 ![0] bcast_S12288_S12288x1_0 d)
/-- A per-feature vector as a row repeated down the nodes. -/
def row256 (b : FVec Ideal S256 .f32) : FVec Ideal S12288x256 .f32 :=
  broadcastInDim S12288x256 ![0, 1] bcast_S1x256_S12288x256_0_1 (broadcastInDim S1x256 ![1] bcast_S256_S1x256_1 b)
def row16 (b : FVec Ideal S16 .f32) : FVec Ideal S12288x16 .f32 :=
  broadcastInDim S12288x16 ![0, 1] bcast_S1x16_S12288x16_0_1 (broadcastInDim S1x16 ![1] bcast_S16_S1x16_1 b)

/-- The two dense transforms. -/
def h1 (x : FVec Ideal S12288x16 .f32) (W1 : FVec Ideal S16x256 .f32) : FVec Ideal S12288x256 .f32 :=
  Host.dotGeneral dot_S12288x16_S16x256_S12288x256_1_0_0_1_n_n none x W1
def h2 (r : FVec Ideal S12288x256 .f32) (W2 : FVec Ideal S256x16 .f32) : FVec Ideal S12288x16 .f32 :=
  Host.dotGeneral dot_S12288x256_S256x16_S12288x16_1_0_0_1_n_n none r W2

/-- One layer as the kernel's program spells it: dis ⊙ (Aᵀ·(dis ⊙ h)) + dis² ⊙ h + b. -/
def lay1 (A : FVec Ideal S12288x12288 .f32) (d : FVec Ideal S12288 .f32) (h : FVec Ideal S12288x256 .f32)
    (b : FVec Ideal S256 .f32) : FVec Ideal S12288x256 .f32 :=
  addf (addf (mulf (col256 d) (atY A (mulf (col256 d) h))) (mulf (col256 (mulf d d)) h)) (row256 b)
def lay2 (A : FVec Ideal S12288x12288 .f32) (d : FVec Ideal S12288 .f32) (h : FVec Ideal S12288x16 .f32)
    (b : FVec Ideal S16 .f32) : FVec Ideal S12288x16 .f32 :=
  addf (addf (mulf (col16 d) (atY A (mulf (col16 d) h))) (mulf (col16 (mulf d d)) h)) (row16 b)

/-- The rectifier. -/
def relu (v : FVec Ideal S12288x256 .f32) : FVec Ideal S12288x256 .f32 :=
  maximumf v (broadcastInDim S12288x256 ![] bcast_S_S12288x256 (constant (F := Ideal) S_ .f32 0x00000000#32))

/-- The numerator of the column-wise softmax: exp of the entry minus its column's maximum. -/
def expShift (h : FVec Ideal S12288x16 .f32) : FVec Ideal S12288x16 .f32 :=
  Host.exp (subf h (row16 (maximumf (broadcastInDim S16 ![] bcast_S_S16 (constant (F := Ideal) S_ .f32 0xFF800000#32))
    (Host.reduce FloatOps.maximumf h (constant (F := Ideal) S_ .f32 0xFF800000#32) reducesTo_S12288x16_S16_d0 h_S_))))
/-- The column-wise softmax both programs end with. -/
def softmax0 (h : FVec Ideal S12288x16 .f32) : FVec Ideal S12288x16 .f32 :=
  Host.divf (expShift h)
    (row16 (Host.reduceAdd (expShift h) (constant (F := Ideal) S_ .f32 0x00000000#32) reducesTo_S12288x16_S16_d0 h_S_))

/-- The value entering the softmax: the second layer's output plus the skip connection. -/
def logits (A : FVec Ideal S12288x12288 .f32) (x : FVec Ideal S12288x16 .f32) (W1 : FVec Ideal S16x256 .f32)
    (b1 : FVec Ideal S256 .f32) (W2 : FVec Ideal S256x16 .f32) (b2 : FVec Ideal S16 .f32) : FVec Ideal S12288x16 .f32 :=
  addf (lay2 A (dis (deg A)) (h2 (relu (lay1 A (dis (deg A)) (h1 x W1) b1)) W2) b2) x

/-- The kernel's result. -/
def result (A : FVec Ideal S12288x12288 .f32) (x : FVec Ideal S12288x16 .f32) (W1 : FVec Ideal S16x256 .f32)
    (b1 : FVec Ideal S256 .f32) (W2 : FVec Ideal S256x16 .f32) (b2 : FVec Ideal S16 .f32) : FVec Ideal S12288x16 .f32 :=
  softmax0 (logits A x W1 b1 W2 b2)

end Cert.KernelIdeal.KFun

end
-- ==== Proof.LibTransposedDot.lean ====
/-
  A matrix product whose LEFT operand is contracted along its FIRST axis, read at an entry.

  For the dimension numbers that contract axis 0 of a K × M matrix against axis 0 of a K × N matrix (the product
  of the left operand's transpose with the right operand, no batch axis) the sum over the product's contraction index is
  the sum over `k : Fin K` of `l (k, a) · r (k, b)`. Stated for ANY record with those dimension numbers, whatever the
  three extents; the form for a `tpu.matmul` into a zero accumulator at the ideal values follows.
-/
import Idealize.ShloMosaic.PureOps.Ideal.Laws
import Idealize.ShloMosaic.Lib.ValueIdx

noncomputable section

namespace Cert.LibTransposedDot

open Idealize.ShloMosaic Idealize.ShloMosaic.ValueIdx

variable {M K N : Nat}

/-- The transposed-left product's sum over its contraction index is the sum over `k : Fin K` of `l (k, a) * r (k, b)`. -/
theorem dot_sum (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (l : (⟨2, ![K, M]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 k a) * r (ix2 k b) := by
  obtain ⟨lc, rc, ln, rn, lb, rb, wf⟩ := d
  dsimp only at hlc hrc hln hrn hlb hrb
  subst hlc hrc hln hrn hlb hrb
  generalize hd : (⟨[0], [0], [1], [1], [], [], wf⟩ : DotDims ⟨2, ![K, M]⟩ ⟨2, ![K, N]⟩ ⟨2, ![M, N]⟩) = d
  have hlc : d.lhsContracting = [0] := by rw [← hd]
  have hrc : d.rhsContracting = [0] := by rw [← hd]
  have hr : d.contr.rank = 1 := by rw [← hd]; rfl
  have hs : d.contr.size ⟨0, by omega⟩ = K := by subst hd; rfl
  -- the left operand's kept axis (its second) reads the result's row index
  have l1 : ∀ q : d.contr.Idx, (d.lhsIdx (ix2 a b) q 1).val = a.val := by
    subst hd; intro q
    unfold DotDims.lhsIdx
    rw [dif_neg (show ¬ (1 : Fin 2) ∈ ([] : List (Fin 2)) from List.not_mem_nil),
      dif_pos (show (1 : Fin 2) ∈ ([1] : List (Fin 2)) from List.mem_singleton.mpr rfl)]
    rfl
  -- the right operand's kept axis (its second) reads the result's column index
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 k a := funext fun ax => Fin.ext (by
    match ax with
    | ⟨0, _⟩ => exact (d.lhsIdx_val_of_single hlc _ _).trans hk
    | ⟨1, _⟩ => exact l1 _)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of those dimension numbers into the zero accumulator, at the ideal values, at entry (a, b). -/
theorem matmul_zero_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (dot_sum d hlc hrc hln hrn hlb hrb l r a b)

end Cert.LibTransposedDot

end
-- ==== Proof.Region0.lean ====
/-
  Launch 0 of the kernel's program: its result array ends holding Aᵀ·Y.
-/
import proofs.«127168_j18975165513738_1_alg».proof.Proof.Gen.KernelIdeal.Frame
import proofs.«127168_j18975165513738_1_alg».proof.Proof.GcnMath
import proofs.«127168_j18975165513738_1_alg».proof.Proof.LibTransposedDot
import Idealize.ShloMosaic.Lib.Pipeline.Value
import Idealize.ShloMosaic.Lib.Tactic

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

section Pieces
variable {F : FTy → Type} [FloatOps F]

/-- The block origin. -/
theorem origin : (![0, 0] : Fin 2 → Nat) = fun _ => 0 := funext fun a => by fin_cases a <;> rfl

/-- A point that does not reset leaves, in the result block holding `xo`, the payload of the two operand blocks and `xo`. -/
theorem step_value (c : Dev nD) (i : grid0.Coords) (a2 : Memref sig .tc .vmem S512x3072 .f32) (h2 : a2.IsWhole)
    (a3 : Memref sig .tc .vmem S512x1 .f32) (h3 : a3.IsWhole) (a4 : Memref sig .tc .vmem S3072x1 .f32) (h4 : a4.IsWhole)
    (hc : ¬cond0_0 i) (x0 : Vec F S512x3072 .f32) (x1 : Vec F S512x1 .f32) (xo : Vec F S3072x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero origin]
  simp only [View.readAt_eq_ld, h2.read_unread, h3.read_unread, h4.read_unread, View.ld_unit_zero (S := S512x3072) origin,
    View.ld_unit_zero (S := S512x1) origin, View.ld_unit_zero (S := S3072x1) origin]

/-- A resetting point stores the zero block, reads it back, and leaves the payload of the two operand blocks and the zero block. -/
theorem reset_value (c : Dev nD) (i : grid0.Coords) (a2 : Memref sig .tc .vmem S512x3072 .f32) (h2 : a2.IsWhole)
    (a3 : Memref sig .tc .vmem S512x1 .f32) (h3 : a3.IsWhole) (a4 : Memref sig .tc .vmem S3072x1 .f32) (h4 : a4.IsWhole)
    (hc : cond0_0 i) (x0 : Vec F S512x3072 .f32) (x1 : Vec F S512x1 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S3072x1) origin, View.readCov_unit_zero (S := S3072x1) _ origin]
  simp only [View.readAt_eq_ld, h2.read_unread, h3.read_unread, View.ld_unit_zero (S := S512x3072) origin,
    View.ld_unit_zero (S := S512x1) origin, View.ld_unit_zero (S := S3072x1) origin, View.readCov_unit_zero (S := S3072x1) _ origin]

end Pieces

section Payload

/-- The zero block is zero at every entry (over the extended reals). -/
theorem zero_block_apply (j : S3072x1.Idx) : (k0_pay1 (F := Ideal)) j = 0 := by
  unfold k0_pay1
  exact Ideal.ofBits_zero_f32

/-- Entry (p, q) of the payload: the old entry plus the sum over the 512 rows k of the two operand blocks of
    `x0 (k, p) * x1 (k, q)` (over the extended reals the narrowing of the operands changes nothing). -/
theorem payload_apply (x0 : Vec Ideal S512x3072 .f32) (x1 : Vec Ideal S512x1 .f32) (xo : Vec Ideal S3072x1 .f32)
    (p : Fin 3072) (q : Fin 1) :
    k0_pay2 (F := Ideal) x0 x1 xo (ix2 p q) = xo (ix2 p q) + ∑ k : Fin 512, x0 (ix2 k p) * x1 (ix2 k q) := by
  unfold k0_pay2
  refine (addf_apply _ _ (ix2 p q)).trans ?_
  rw [shapeCast_self, shapeCast_self]
  refine congrArg (fun z => xo (ix2 p q) + z) ?_
  exact Cert.LibTransposedDot.matmul_zero_apply dot_S512x3072_S512x1_S3072x1_0_0_1_1_n_n rfl rfl rfl rfl rfl rfl none _ _ p q

end Payload

section Tiles
open Finset

/-- `T` consecutive tiles of `K` naturals are the first `T * K` naturals. -/
theorem sum_tiles_range {β : Type*} [AddCommMonoid β] (K : ℕ) (g : ℕ → β) :
    ∀ T : ℕ, ∑ s ∈ range T, ∑ k ∈ range K, g (K * s + k) = ∑ i ∈ range (T * K), g i
  | 0 => by simp
  | T + 1 => by
    rw [Finset.sum_range_succ, sum_tiles_range K g T, Nat.succ_mul, Finset.sum_range_add, Nat.mul_comm K T]

/-- The 24 tiles of 512 rows are the 12288 rows. -/
theorem sum_row_tiles {β : Type*} [AddCommMonoid β] (g : ℕ → β) :
    ∑ s ∈ range 24, ∑ k : Fin 512, g (512 * s + k.val) = ∑ i : Fin 12288, g i.val := by
  rw [Fin.sum_univ_eq_sum_range (fun i => g i) 12288]
  have e : ∀ s : ℕ, ∑ k : Fin 512, g (512 * s + k.val) = ∑ k ∈ range 512, g (512 * s + k) :=
    fun s => Fin.sum_univ_eq_sum_range (fun k => g (512 * s + k)) 512
  rw [Finset.sum_congr rfl fun s _ => e s]
  exact sum_tiles_range 512 g 24

end Tiles

/-- The block indices of the three windows at point `t`: the left operand's block is (t % 24, t / 24), the right operand's
    (t % 24, 0), the result's (t / 24, 0). -/
theorem block_index : ∀ t : Fin cfg0.N,
    win0_0.index t (0 : Fin 2) = t.val % 24 ∧ win0_0.index t (1 : Fin 2) = t.val / 24
    ∧ win0_1.index t (0 : Fin 2) = t.val % 24 ∧ win0_1.index t (1 : Fin 2) = 0
    ∧ win0_2.index t (0 : Fin 2) = t.val / 24 ∧ win0_2.index t (1 : Fin 2) = 0 :=
  (by decide +kernel : ∀ t : Fin grid0.N, _)

/-- An index of the array is in point `t`'s result block iff each coordinate is in the block's range on its axis. -/
theorem mem_out_block (t : Fin cfg0.N) (i : S12288x1.Idx) :
    i ∈ ((cfg0.win 2).blk t).view.set
      ↔ ∀ a : Fin 2, win0_2.index t a * S3072x1.size a ≤ (i a).val ∧ (i a).val < win0_2.index t a * S3072x1.size a + S3072x1.size a := by
  show i ∈ ((View.whole main_v1).slice (win0_2.rect t)).set ↔ _
  rw [View.set_slice_whole, Rect.mem_set_unit]
  exact Iff.rfl

/-- Row `r` of the array is written back by the point that closes the run of the row's tile: point 24·(r / 3072) + 23. -/
theorem covered (i : S12288x1.Idx) :
    ∃ t : Fin cfg0.N, (cfg0.win 2).flush t = true ∧ i ∈ ((cfg0.win 2).blk t).view.set := by
  have hN : cfg0.N = 96 := N_0
  have h0 : (i 0).val < 12288 := (i 0).isLt
  have h1 : (i 1).val < 1 := (i 1).isLt
  have ht : 24 * ((i 0).val / 3072) + 23 < cfg0.N := by omega
  refine ⟨⟨24 * ((i 0).val / 3072) + 23, ht⟩, (flush0_2 _).mpr (by dsimp only; omega), ?_⟩
  rw [mem_out_block]
  obtain ⟨-, -, -, -, e0, e1⟩ := block_index ⟨24 * ((i 0).val / 3072) + 23, ht⟩
  dsimp only at e0 e1
  intro a
  match a with
  | ⟨0, _⟩ =>
    show win0_2.index ⟨24 * ((i 0).val / 3072) + 23, ht⟩ (0 : Fin 2) * 3072 ≤ (i 0).val
      ∧ (i 0).val < win0_2.index ⟨24 * ((i 0).val / 3072) + 23, ht⟩ (0 : Fin 2) * 3072 + 3072
    rw [e0]; omega
  | ⟨1, _⟩ =>
    show win0_2.index ⟨24 * ((i 0).val / 3072) + 23, ht⟩ (1 : Fin 2) * 1 ≤ (i 1).val
      ∧ (i 1).val < win0_2.index ⟨24 * ((i 0).val / 3072) + 23, ht⟩ (1 : Fin 2) * 1 + 1
    rw [e1]; omega

variable (V : (c : Dev nD) → (b : Ref sig .tc) → Buf (Elt Ideal) ((c : Thread nD τ).loc b))

/-- The left operand array at natural-number coordinates (zero outside the array). -/
def lhsAt (c : Dev nD) (r s : ℕ) : EReal :=
  if h : r < 12288 ∧ s < 12288 then (V c main_arg0 : S12288x12288.Idx → EReal) (ix2 ⟨r, h.1⟩ ⟨s, h.2⟩) else 0

/-- The right operand array at natural-number coordinates (zero outside the array). -/
def rhsAt (c : Dev nD) (r s : ℕ) : EReal :=
  if h : r < 12288 ∧ s < 1 then (V c main_v0 : S12288x1.Idx → EReal) (ix2 ⟨r, h.1⟩ ⟨s, h.2⟩) else 0

/-- Entry (k, p) of the left operand's block at point `t` is the array's entry (512·(t % 24) + k, 3072·(t / 24) + p). -/
theorem lhs_block_apply (c : Dev nD) (t : Fin cfg0.N) (k : Fin 512) (p : Fin 3072) :
    (iblk0 V c 0 t : Vec Ideal S512x3072 .f32) (ix2 k p)
      = lhsAt V c (512 * (t.val % 24) + k.val) (3072 * (t.val / 24) + p.val) := by
  have hN : t.val < 96 := lt_of_lt_of_eq t.isLt (show cfg0.N = 96 from N_0)
  have hk := k.isLt
  have hp := p.isLt
  have hr : 512 * (t.val % 24) + k.val < 12288 := by omega
  have hs : 3072 * (t.val / 24) + p.val < 12288 := by omega
  unfold lhsAt
  rw [dif_pos ⟨hr, hs⟩]
  obtain ⟨e0, e1, -⟩ := block_index t
  unfold iblk0
  show V c main_arg0 (((cfg0.win 0).blk t).view.emb (ix2 k p)) = V c main_arg0 (ix2 ⟨_, hr⟩ ⟨_, hs⟩)
  refine congrArg (V c main_arg0) ?_
  funext a
  apply Fin.ext
  match a with
  | ⟨0, _⟩ => show win0_0.index t (0 : Fin 2) * 512 + 1 * k.val = 512 * (t.val % 24) + k.val; rw [e0]; omega
  | ⟨1, _⟩ => show win0_0.index t (1 : Fin 2) * 3072 + 1 * p.val = 3072 * (t.val / 24) + p.val; rw [e1]; omega

/-- Entry (k, q) of the right operand's block at point `t` is the array's entry (512·(t % 24) + k, q). -/
theorem rhs_block_apply (c : Dev nD) (t : Fin cfg0.N) (k : Fin 512) (q : Fin 1) :
    (iblk0 V c 1 t : Vec Ideal S512x1 .f32) (ix2 k q) = rhsAt V c (512 * (t.val % 24) + k.val) q.val := by
  have hN : t.val < 96 := lt_of_lt_of_eq t.isLt (show cfg0.N = 96 from N_0)
  have hk := k.isLt
  have hr : 512 * (t.val % 24) + k.val < 12288 := by omega
  unfold rhsAt
  rw [dif_pos ⟨hr, q.isLt⟩]
  obtain ⟨-, -, e0, e1, -⟩ := block_index t
  unfold iblk0
  show V c main_v0 (((cfg0.win 1).blk t).view.emb (ix2 k q)) = V c main_v0 (ix2 ⟨_, hr⟩ ⟨q.val, q.isLt⟩)
  refine congrArg (V c main_v0) ?_
  funext a
  apply Fin.ext
  match a with
  | ⟨0, _⟩ => show win0_1.index t (0 : Fin 2) * 512 + 1 * k.val = 512 * (t.val % 24) + k.val; rw [e0]; omega
  | ⟨1, _⟩ => show win0_1.index t (1 : Fin 2) * 1 + 1 * q.val = q.val; rw [e1]; omega

/-- What point `n` adds to entry `i` of its result block: the products of its 512 rows. -/
def addend (c : Dev nD) (n : ℕ) (i : S3072x1.Idx) : EReal :=
  ∑ k : Fin 512, lhsAt V c (512 * (n % 24) + k.val) (3072 * (n / 24) + (i 0).val) * rhsAt V c (512 * (n % 24) + k.val) (i 1).val

/-- The payload at point `t` over the result block `acc`: each entry gains the point's addend. -/
theorem payload_block (c : Dev nD) (t : Fin cfg0.N) (acc : Vec Ideal S3072x1 .f32) (i : S3072x1.Idx) :
    k0_pay2 (F := Ideal) (iblk0 V c 0 t) (iblk0 V c 1 t) acc i = acc i + addend V c t.val i := by
  obtain ⟨p, q, rfl⟩ : ∃ (p : Fin 3072) (q : Fin 1), i = ix2 p q := ⟨i 0, i 1, eq_ix2 i⟩
  refine (payload_apply (iblk0 V c 0 t) (iblk0 V c 1 t) acc p q).trans ?_
  refine congrArg (fun z => acc (ix2 p q) + z) ?_
  unfold addend
  refine Finset.sum_congr rfl fun k _ => ?_
  rw [lhs_block_apply V c t k p, rhs_block_apply V c t k q]

/-- In the run of points 24·q … 24·q + 23 the point 24·q + s adds the products of the rows 512·s … 512·s + 511
    against the columns 3072·q + p of the left operand. -/
theorem addend_run (c : Dev nD) (q s : ℕ) (hs : s < 24) (p : Fin 3072) (r : Fin 1) :
    addend V c (24 * q + s) (ix2 p r)
      = ∑ k : Fin 512, lhsAt V c (512 * s + k.val) (3072 * q + p.val) * rhsAt V c (512 * s + k.val) r.val := by
  unfold addend
  have e0 : (24 * q + s) % 24 = s := by omega
  have e1 : (24 * q + s) / 24 = q := by omega
  rw [e0, e1]

/-- After the last point of the run 24·q … 24·q + 23 the result block holds, at each entry, the sum of the 24 addends
    (the reset's zero first). -/
theorem run_fold (c : Dev nD) (q : ℕ) (h : 24 * q + 23 < cfg0.N) (i : S3072x1.Idx) :
    outsAt0 V c (24 * q + 23) h i = 0 + ∑ s ∈ Finset.range (23 + 1), addend V c (24 * q + s) i := by
  have e := Pipeline.eq_accAt (fun n hn => outsAt0 V c n hn) 24
    (fun n hn => k0_pay2 (F := Ideal) (iblk0 V c 0 ⟨n, hn⟩) (iblk0 V c 1 ⟨n, hn⟩) (k0_pay1 (F := Ideal)))
    (fun n hn acc => k0_pay2 (F := Ideal) (iblk0 V c 0 ⟨n, hn⟩) (iblk0 V c 1 ⟨n, hn⟩) acc)
    (fun n hn hm => (outsAt0_A V c ⟨n, hn⟩ hm).trans (reset_value (F := Ideal) c _ _ _ _ _ _ _ _ (iblk0 V c 0 ⟨n, hn⟩) (iblk0 V c 1 ⟨n, hn⟩)))
    (fun n hn hm => (outsAt0_B V c ⟨n + 1, hn⟩ hm).trans (step_value (F := Ideal) c _ _ _ _ _ _ _ _ (iblk0 V c 0 ⟨n + 1, hn⟩) (iblk0 V c 1 ⟨n + 1, hn⟩) _))
    q 23 (by omega) h
  refine (congrFun e i).trans ?_
  exact Pipeline.accAt_add_apply _ _ (fun _ => 0) (addend V c) (24 * q) 23
    (fun hb j => (payload_block V c ⟨24 * q, hb⟩ (k0_pay1 (F := Ideal)) j).trans (by rw [zero_block_apply]))
    (fun n hn acc j _ _ => payload_block V c ⟨n, hn⟩ acc j) 23 (le_refl _) h i

/-- Entry (p, r) of the result's block at point `t` sits in the array at (3072·(t / 24) + p, r). -/
theorem out_block_emb (t : Fin cfg0.N) (p : Fin 3072) (r : Fin 1) (h : 3072 * (t.val / 24) + p.val < 12288) :
    ((cfg0.win 2).blk t).view.emb (ix2 p r) = (ix2 ⟨3072 * (t.val / 24) + p.val, h⟩ r : S12288x1.Idx) := by
  obtain ⟨-, -, -, -, e0, e1⟩ := block_index t
  funext a
  apply Fin.ext
  match a with
  | ⟨0, _⟩ => show win0_2.index t (0 : Fin 2) * 3072 + 1 * p.val = 3072 * (t.val / 24) + p.val; rw [e0]; omega
  | ⟨1, _⟩ => show win0_2.index t (1 : Fin 2) * 1 + 1 * r.val = r.val; rw [e1]; omega

/-- What a flushing point writes back is its block of Aᵀ·Y: the point closes a run of 24 points whose addends are
    the 24 row tiles of the column sum. -/
theorem flushed_eq (c : Dev nD) (t : Fin cfg0.N) (hf : (cfg0.win 2).flush t = true) :
    (dat0 V c).flushed 2 t
      = ((cfg0.win 2).blk t).view.read (Elt Ideal) (Cert.GcnMath.atY (D := 1) (V c main_arg0) (V c main_v0)) := by
  have hN : cfg0.N = 96 := N_0
  have h23 : t.val % 24 = 23 := (flush0_2 t).mp hf
  obtain ⟨n, hn⟩ := t
  dsimp only at h23
  obtain ⟨q, rfl⟩ : ∃ q, n = 24 * q + 23 := ⟨n / 24, by omega⟩
  show (cfg0.win 2).cut (grid0.coords ⟨24 * q + 23, hn⟩) ((dat0 V c).after 2 ⟨24 * q + 23, hn⟩) = _
  rw [after0_2]
  funext j
  obtain ⟨p, r, rfl⟩ : ∃ (p : Fin 3072) (r : Fin 1), j = ix2 p r := ⟨j 0, j 1, eq_ix2 j⟩
  have hp := p.isLt
  have hq : (24 * q + 23) / 24 = q := by omega
  have hrow : 3072 * ((24 * q + 23) / 24) + p.val < 12288 := by omega
  show outsAt0 V c (24 * q + 23) hn (ix2 p r)
    = Cert.GcnMath.atY (D := 1) (V c main_arg0) (V c main_v0) (((cfg0.win 2).blk ⟨24 * q + 23, hn⟩).view.emb (ix2 p r))
  rw [out_block_emb ⟨24 * q + 23, hn⟩ p r hrow, Cert.GcnMath.atY_apply, run_fold V c q hn (ix2 p r), zero_add,
    Finset.sum_congr rfl fun s hs => addend_run V c q s (Finset.mem_range.mp hs) p r]
  refine (sum_row_tiles fun i => lhsAt V c i (3072 * q + p.val) * rhsAt V c i r.val).trans ?_
  refine Finset.sum_congr rfl fun i _ => ?_
  have hi := i.isLt
  unfold lhsAt rhsAt
  rw [dif_pos ⟨hi, by omega⟩, dif_pos ⟨hi, r.isLt⟩]
  have e : (⟨3072 * q + p.val, by omega⟩ : Fin 12288) = ⟨3072 * ((24 * q + 23) / 24) + p.val, hrow⟩ := Fin.ext (by show 3072 * q + p.val = 3072 * ((24 * q + 23) / 24) + p.val; omega)
  rw [e]

/-- After the launch's 96 grid points the result array holds Aᵀ·Y of the two operand arrays as the launch found them. -/
theorem final (c : Dev nD) :
    (dat0 V c).arrAt 2 cfg0.N = Cert.GcnMath.atY (D := 1) (V c main_arg0) (V c main_v0) :=
  (dat0 V c).arrAt_eq_of_cover 2 _ (flushed_eq V c) covered

end Cert.KernelIdeal.Region0

end
-- ==== Proof.Region1.lean ====
/-
  Launch 1 of the kernel's program: its result array ends holding Aᵀ·Y.
-/
import proofs.«127168_j18975165513738_1_alg».proof.Proof.Gen.KernelIdeal.Frame
import proofs.«127168_j18975165513738_1_alg».proof.Proof.GcnMath
import proofs.«127168_j18975165513738_1_alg».proof.Proof.LibTransposedDot
import Idealize.ShloMosaic.Lib.Pipeline.Value
import Idealize.ShloMosaic.Lib.Tactic

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

section Pieces
variable {F : FTy → Type} [FloatOps F]

/-- The block origin. -/
theorem origin : (![0, 0] : Fin 2 → Nat) = fun _ => 0 := funext fun a => by fin_cases a <;> rfl

/-- A point that does not reset leaves, in the result block holding `xo`, the payload of the two operand blocks and `xo`. -/
theorem step_value (c : Dev nD) (i : grid1.Coords) (a2 : Memref sig .tc .vmem S512x3072 .f32) (h2 : a2.IsWhole)
    (a3 : Memref sig .tc .vmem S512x256 .f32) (h3 : a3.IsWhole) (a4 : Memref sig .tc .vmem S3072x256 .f32) (h4 : a4.IsWhole)
    (hc : ¬cond1_0 i) (x0 : Vec F S512x3072 .f32) (x1 : Vec F S512x256 .f32) (xo : Vec F S3072x256 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero origin]
  simp only [View.readAt_eq_ld, h2.read_unread, h3.read_unread, h4.read_unread, View.ld_unit_zero (S := S512x3072) origin,
    View.ld_unit_zero (S := S512x256) origin, View.ld_unit_zero (S := S3072x256) origin]

/-- A resetting point stores the zero block, reads it back, and leaves the payload of the two operand blocks and the zero block. -/
theorem reset_value (c : Dev nD) (i : grid1.Coords) (a2 : Memref sig .tc .vmem S512x3072 .f32) (h2 : a2.IsWhole)
    (a3 : Memref sig .tc .vmem S512x256 .f32) (h3 : a3.IsWhole) (a4 : Memref sig .tc .vmem S3072x256 .f32) (h4 : a4.IsWhole)
    (hc : cond1_0 i) (x0 : Vec F S512x3072 .f32) (x1 : Vec F S512x256 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S3072x256) origin, View.readCov_unit_zero (S := S3072x256) _ origin]
  simp only [View.readAt_eq_ld, h2.read_unread, h3.read_unread, View.ld_unit_zero (S := S512x3072) origin,
    View.ld_unit_zero (S := S512x256) origin, View.ld_unit_zero (S := S3072x256) origin, View.readCov_unit_zero (S := S3072x256) _ origin]

end Pieces

section Payload

/-- The zero block is zero at every entry (over the extended reals). -/
theorem zero_block_apply (j : S3072x256.Idx) : (k1_pay1 (F := Ideal)) j = 0 := by
  unfold k1_pay1
  exact Ideal.ofBits_zero_f32

/-- Entry (p, q) of the payload: the old entry plus the sum over the 512 rows k of the two operand blocks of
    `x0 (k, p) * x1 (k, q)` (over the extended reals the narrowing of the operands changes nothing). -/
theorem payload_apply (x0 : Vec Ideal S512x3072 .f32) (x1 : Vec Ideal S512x256 .f32) (xo : Vec Ideal S3072x256 .f32)
    (p : Fin 3072) (q : Fin 256) :
    k1_pay2 (F := Ideal) x0 x1 xo (ix2 p q) = xo (ix2 p q) + ∑ k : Fin 512, x0 (ix2 k p) * x1 (ix2 k q) := by
  unfold k1_pay2
  refine (addf_apply _ _ (ix2 p q)).trans ?_
  rw [shapeCast_self, shapeCast_self]
  refine congrArg (fun z => xo (ix2 p q) + z) ?_
  exact Cert.LibTransposedDot.matmul_zero_apply dot_S512x3072_S512x256_S3072x256_0_0_1_1_n_n rfl rfl rfl rfl rfl rfl none _ _ p q

end Payload

section Tiles
open Finset

/-- `T` consecutive tiles of `K` naturals are the first `T * K` naturals. -/
theorem sum_tiles_range {β : Type*} [AddCommMonoid β] (K : ℕ) (g : ℕ → β) :
    ∀ T : ℕ, ∑ s ∈ range T, ∑ k ∈ range K, g (K * s + k) = ∑ i ∈ range (T * K), g i
  | 0 => by simp
  | T + 1 => by
    rw [Finset.sum_range_succ, sum_tiles_range K g T, Nat.succ_mul, Finset.sum_range_add, Nat.mul_comm K T]

/-- The 24 tiles of 512 rows are the 12288 rows. -/
theorem sum_row_tiles {β : Type*} [AddCommMonoid β] (g : ℕ → β) :
    ∑ s ∈ range 24, ∑ k : Fin 512, g (512 * s + k.val) = ∑ i : Fin 12288, g i.val := by
  rw [Fin.sum_univ_eq_sum_range (fun i => g i) 12288]
  have e : ∀ s : ℕ, ∑ k : Fin 512, g (512 * s + k.val) = ∑ k ∈ range 512, g (512 * s + k) :=
    fun s => Fin.sum_univ_eq_sum_range (fun k => g (512 * s + k)) 512
  rw [Finset.sum_congr rfl fun s _ => e s]
  exact sum_tiles_range 512 g 24

end Tiles

/-- The block indices of the three windows at point `t`: the left operand's block is (t % 24, t / 24), the right operand's
    (t % 24, 0), the result's (t / 24, 0). -/
theorem block_index : ∀ t : Fin cfg1.N,
    win1_0.index t (0 : Fin 2) = t.val % 24 ∧ win1_0.index t (1 : Fin 2) = t.val / 24
    ∧ win1_1.index t (0 : Fin 2) = t.val % 24 ∧ win1_1.index t (1 : Fin 2) = 0
    ∧ win1_2.index t (0 : Fin 2) = t.val / 24 ∧ win1_2.index t (1 : Fin 2) = 0 :=
  (by decide +kernel : ∀ t : Fin grid1.N, _)

/-- An index of the array is in point `t`'s result block iff each coordinate is in the block's range on its axis. -/
theorem mem_out_block (t : Fin cfg1.N) (i : S12288x256.Idx) :
    i ∈ ((cfg1.win 2).blk t).view.set
      ↔ ∀ a : Fin 2, win1_2.index t a * S3072x256.size a ≤ (i a).val ∧ (i a).val < win1_2.index t a * S3072x256.size a + S3072x256.size a := by
  show i ∈ ((View.whole main_v13).slice (win1_2.rect t)).set ↔ _
  rw [View.set_slice_whole, Rect.mem_set_unit]
  exact Iff.rfl

/-- Row `r` of the array is written back by the point that closes the run of the row's tile: point 24·(r / 3072) + 23. -/
theorem covered (i : S12288x256.Idx) :
    ∃ t : Fin cfg1.N, (cfg1.win 2).flush t = true ∧ i ∈ ((cfg1.win 2).blk t).view.set := by
  have hN : cfg1.N = 96 := N_1
  have h0 : (i 0).val < 12288 := (i 0).isLt
  have h1 : (i 1).val < 256 := (i 1).isLt
  have ht : 24 * ((i 0).val / 3072) + 23 < cfg1.N := by omega
  refine ⟨⟨24 * ((i 0).val / 3072) + 23, ht⟩, (flush1_2 _).mpr (by dsimp only; omega), ?_⟩
  rw [mem_out_block]
  obtain ⟨-, -, -, -, e0, e1⟩ := block_index ⟨24 * ((i 0).val / 3072) + 23, ht⟩
  dsimp only at e0 e1
  intro a
  match a with
  | ⟨0, _⟩ =>
    show win1_2.index ⟨24 * ((i 0).val / 3072) + 23, ht⟩ (0 : Fin 2) * 3072 ≤ (i 0).val
      ∧ (i 0).val < win1_2.index ⟨24 * ((i 0).val / 3072) + 23, ht⟩ (0 : Fin 2) * 3072 + 3072
    rw [e0]; omega
  | ⟨1, _⟩ =>
    show win1_2.index ⟨24 * ((i 0).val / 3072) + 23, ht⟩ (1 : Fin 2) * 256 ≤ (i 1).val
      ∧ (i 1).val < win1_2.index ⟨24 * ((i 0).val / 3072) + 23, ht⟩ (1 : Fin 2) * 256 + 256
    rw [e1]; omega

variable (V : (c : Dev nD) → (b : Ref sig .tc) → Buf (Elt Ideal) ((c : Thread nD τ).loc b))

/-- The left operand array at natural-number coordinates (zero outside the array). -/
def lhsAt (c : Dev nD) (r s : ℕ) : EReal :=
  if h : r < 12288 ∧ s < 12288 then (V c main_arg0 : S12288x12288.Idx → EReal) (ix2 ⟨r, h.1⟩ ⟨s, h.2⟩) else 0

/-- The right operand array at natural-number coordinates (zero outside the array). -/
def rhsAt (c : Dev nD) (r s : ℕ) : EReal :=
  if h : r < 12288 ∧ s < 256 then (V c main_v12 : S12288x256.Idx → EReal) (ix2 ⟨r, h.1⟩ ⟨s, h.2⟩) else 0

/-- Entry (k, p) of the left operand's block at point `t` is the array's entry (512·(t % 24) + k, 3072·(t / 24) + p). -/
theorem lhs_block_apply (c : Dev nD) (t : Fin cfg1.N) (k : Fin 512) (p : Fin 3072) :
    (iblk1 V c 0 t : Vec Ideal S512x3072 .f32) (ix2 k p)
      = lhsAt V c (512 * (t.val % 24) + k.val) (3072 * (t.val / 24) + p.val) := by
  have hN : t.val < 96 := lt_of_lt_of_eq t.isLt (show cfg1.N = 96 from N_1)
  have hk := k.isLt
  have hp := p.isLt
  have hr : 512 * (t.val % 24) + k.val < 12288 := by omega
  have hs : 3072 * (t.val / 24) + p.val < 12288 := by omega
  unfold lhsAt
  rw [dif_pos ⟨hr, hs⟩]
  obtain ⟨e0, e1, -⟩ := block_index t
  unfold iblk1
  show V c main_arg0 (((cfg1.win 0).blk t).view.emb (ix2 k p)) = V c main_arg0 (ix2 ⟨_, hr⟩ ⟨_, hs⟩)
  refine congrArg (V c main_arg0) ?_
  funext a
  apply Fin.ext
  match a with
  | ⟨0, _⟩ => show win1_0.index t (0 : Fin 2) * 512 + 1 * k.val = 512 * (t.val % 24) + k.val; rw [e0]; omega
  | ⟨1, _⟩ => show win1_0.index t (1 : Fin 2) * 3072 + 1 * p.val = 3072 * (t.val / 24) + p.val; rw [e1]; omega

/-- Entry (k, q) of the right operand's block at point `t` is the array's entry (512·(t % 24) + k, q). -/
theorem rhs_block_apply (c : Dev nD) (t : Fin cfg1.N) (k : Fin 512) (q : Fin 256) :
    (iblk1 V c 1 t : Vec Ideal S512x256 .f32) (ix2 k q) = rhsAt V c (512 * (t.val % 24) + k.val) q.val := by
  have hN : t.val < 96 := lt_of_lt_of_eq t.isLt (show cfg1.N = 96 from N_1)
  have hk := k.isLt
  have hr : 512 * (t.val % 24) + k.val < 12288 := by omega
  unfold rhsAt
  rw [dif_pos ⟨hr, q.isLt⟩]
  obtain ⟨-, -, e0, e1, -⟩ := block_index t
  unfold iblk1
  show V c main_v12 (((cfg1.win 1).blk t).view.emb (ix2 k q)) = V c main_v12 (ix2 ⟨_, hr⟩ ⟨q.val, q.isLt⟩)
  refine congrArg (V c main_v12) ?_
  funext a
  apply Fin.ext
  match a with
  | ⟨0, _⟩ => show win1_1.index t (0 : Fin 2) * 512 + 1 * k.val = 512 * (t.val % 24) + k.val; rw [e0]; omega
  | ⟨1, _⟩ => show win1_1.index t (1 : Fin 2) * 256 + 1 * q.val = q.val; rw [e1]; omega

/-- What point `n` adds to entry `i` of its result block: the products of its 512 rows. -/
def addend (c : Dev nD) (n : ℕ) (i : S3072x256.Idx) : EReal :=
  ∑ k : Fin 512, lhsAt V c (512 * (n % 24) + k.val) (3072 * (n / 24) + (i 0).val) * rhsAt V c (512 * (n % 24) + k.val) (i 1).val

/-- The payload at point `t` over the result block `acc`: each entry gains the point's addend. -/
theorem payload_block (c : Dev nD) (t : Fin cfg1.N) (acc : Vec Ideal S3072x256 .f32) (i : S3072x256.Idx) :
    k1_pay2 (F := Ideal) (iblk1 V c 0 t) (iblk1 V c 1 t) acc i = acc i + addend V c t.val i := by
  obtain ⟨p, q, rfl⟩ : ∃ (p : Fin 3072) (q : Fin 256), i = ix2 p q := ⟨i 0, i 1, eq_ix2 i⟩
  refine (payload_apply (iblk1 V c 0 t) (iblk1 V c 1 t) acc p q).trans ?_
  refine congrArg (fun z => acc (ix2 p q) + z) ?_
  unfold addend
  refine Finset.sum_congr rfl fun k _ => ?_
  rw [lhs_block_apply V c t k p, rhs_block_apply V c t k q]

/-- In the run of points 24·q … 24·q + 23 the point 24·q + s adds the products of the rows 512·s … 512·s + 511
    against the columns 3072·q + p of the left operand. -/
theorem addend_run (c : Dev nD) (q s : ℕ) (hs : s < 24) (p : Fin 3072) (r : Fin 256) :
    addend V c (24 * q + s) (ix2 p r)
      = ∑ k : Fin 512, lhsAt V c (512 * s + k.val) (3072 * q + p.val) * rhsAt V c (512 * s + k.val) r.val := by
  unfold addend
  have e0 : (24 * q + s) % 24 = s := by omega
  have e1 : (24 * q + s) / 24 = q := by omega
  rw [e0, e1]

/-- After the last point of the run 24·q … 24·q + 23 the result block holds, at each entry, the sum of the 24 addends
    (the reset's zero first). -/
theorem run_fold (c : Dev nD) (q : ℕ) (h : 24 * q + 23 < cfg1.N) (i : S3072x256.Idx) :
    outsAt1 V c (24 * q + 23) h i = 0 + ∑ s ∈ Finset.range (23 + 1), addend V c (24 * q + s) i := by
  have e := Pipeline.eq_accAt (fun n hn => outsAt1 V c n hn) 24
    (fun n hn => k1_pay2 (F := Ideal) (iblk1 V c 0 ⟨n, hn⟩) (iblk1 V c 1 ⟨n, hn⟩) (k1_pay1 (F := Ideal)))
    (fun n hn acc => k1_pay2 (F := Ideal) (iblk1 V c 0 ⟨n, hn⟩) (iblk1 V c 1 ⟨n, hn⟩) acc)
    (fun n hn hm => (outsAt1_A V c ⟨n, hn⟩ hm).trans (reset_value (F := Ideal) c _ _ _ _ _ _ _ _ (iblk1 V c 0 ⟨n, hn⟩) (iblk1 V c 1 ⟨n, hn⟩)))
    (fun n hn hm => (outsAt1_B V c ⟨n + 1, hn⟩ hm).trans (step_value (F := Ideal) c _ _ _ _ _ _ _ _ (iblk1 V c 0 ⟨n + 1, hn⟩) (iblk1 V c 1 ⟨n + 1, hn⟩) _))
    q 23 (by omega) h
  refine (congrFun e i).trans ?_
  exact Pipeline.accAt_add_apply _ _ (fun _ => 0) (addend V c) (24 * q) 23
    (fun hb j => (payload_block V c ⟨24 * q, hb⟩ (k1_pay1 (F := Ideal)) j).trans (by rw [zero_block_apply]))
    (fun n hn acc j _ _ => payload_block V c ⟨n, hn⟩ acc j) 23 (le_refl _) h i

/-- Entry (p, r) of the result's block at point `t` sits in the array at (3072·(t / 24) + p, r). -/
theorem out_block_emb (t : Fin cfg1.N) (p : Fin 3072) (r : Fin 256) (h : 3072 * (t.val / 24) + p.val < 12288) :
    ((cfg1.win 2).blk t).view.emb (ix2 p r) = (ix2 ⟨3072 * (t.val / 24) + p.val, h⟩ r : S12288x256.Idx) := by
  obtain ⟨-, -, -, -, e0, e1⟩ := block_index t
  funext a
  apply Fin.ext
  match a with
  | ⟨0, _⟩ => show win1_2.index t (0 : Fin 2) * 3072 + 1 * p.val = 3072 * (t.val / 24) + p.val; rw [e0]; omega
  | ⟨1, _⟩ => show win1_2.index t (1 : Fin 2) * 256 + 1 * r.val = r.val; rw [e1]; omega

/-- What a flushing point writes back is its block of Aᵀ·Y: the point closes a run of 24 points whose addends are
    the 24 row tiles of the column sum. -/
theorem flushed_eq (c : Dev nD) (t : Fin cfg1.N) (hf : (cfg1.win 2).flush t = true) :
    (dat1 V c).flushed 2 t
      = ((cfg1.win 2).blk t).view.read (Elt Ideal) (Cert.GcnMath.atY (D := 256) (V c main_arg0) (V c main_v12)) := by
  have hN : cfg1.N = 96 := N_1
  have h23 : t.val % 24 = 23 := (flush1_2 t).mp hf
  obtain ⟨n, hn⟩ := t
  dsimp only at h23
  obtain ⟨q, rfl⟩ : ∃ q, n = 24 * q + 23 := ⟨n / 24, by omega⟩
  show (cfg1.win 2).cut (grid1.coords ⟨24 * q + 23, hn⟩) ((dat1 V c).after 2 ⟨24 * q + 23, hn⟩) = _
  rw [after1_2]
  funext j
  obtain ⟨p, r, rfl⟩ : ∃ (p : Fin 3072) (r : Fin 256), j = ix2 p r := ⟨j 0, j 1, eq_ix2 j⟩
  have hp := p.isLt
  have hq : (24 * q + 23) / 24 = q := by omega
  have hrow : 3072 * ((24 * q + 23) / 24) + p.val < 12288 := by omega
  show outsAt1 V c (24 * q + 23) hn (ix2 p r)
    = Cert.GcnMath.atY (D := 256) (V c main_arg0) (V c main_v12) (((cfg1.win 2).blk ⟨24 * q + 23, hn⟩).view.emb (ix2 p r))
  rw [out_block_emb ⟨24 * q + 23, hn⟩ p r hrow, Cert.GcnMath.atY_apply, run_fold V c q hn (ix2 p r), zero_add,
    Finset.sum_congr rfl fun s hs => addend_run V c q s (Finset.mem_range.mp hs) p r]
  refine (sum_row_tiles fun i => lhsAt V c i (3072 * q + p.val) * rhsAt V c i r.val).trans ?_
  refine Finset.sum_congr rfl fun i _ => ?_
  have hi := i.isLt
  unfold lhsAt rhsAt
  rw [dif_pos ⟨hi, by omega⟩, dif_pos ⟨hi, r.isLt⟩]
  have e : (⟨3072 * q + p.val, by omega⟩ : Fin 12288) = ⟨3072 * ((24 * q + 23) / 24) + p.val, hrow⟩ := Fin.ext (by show 3072 * q + p.val = 3072 * ((24 * q + 23) / 24) + p.val; omega)
  rw [e]

/-- After the launch's 96 grid points the result array holds Aᵀ·Y of the two operand arrays as the launch found them. -/
theorem final (c : Dev nD) :
    (dat1 V c).arrAt 2 cfg1.N = Cert.GcnMath.atY (D := 256) (V c main_arg0) (V c main_v12) :=
  (dat1 V c).arrAt_eq_of_cover 2 _ (flushed_eq V c) covered

end Cert.KernelIdeal.Region1

end
-- ==== Proof.Region2.lean ====
/-
  Launch 2 of the kernel's program: its result array ends holding Aᵀ·Y.
-/
import proofs.«127168_j18975165513738_1_alg».proof.Proof.Gen.KernelIdeal.Frame
import proofs.«127168_j18975165513738_1_alg».proof.Proof.GcnMath
import proofs.«127168_j18975165513738_1_alg».proof.Proof.LibTransposedDot
import Idealize.ShloMosaic.Lib.Pipeline.Value
import Idealize.ShloMosaic.Lib.Tactic

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

section Pieces
variable {F : FTy → Type} [FloatOps F]

/-- The block origin. -/
theorem origin : (![0, 0] : Fin 2 → Nat) = fun _ => 0 := funext fun a => by fin_cases a <;> rfl

/-- A point that does not reset leaves, in the result block holding `xo`, the payload of the two operand blocks and `xo`. -/
theorem step_value (c : Dev nD) (i : grid2.Coords) (a2 : Memref sig .tc .vmem S512x3072 .f32) (h2 : a2.IsWhole)
    (a3 : Memref sig .tc .vmem S512x16 .f32) (h3 : a3.IsWhole) (a4 : Memref sig .tc .vmem S3072x16 .f32) (h4 : a4.IsWhole)
    (hc : ¬cond2_0 i) (x0 : Vec F S512x3072 .f32) (x1 : Vec F S512x16 .f32) (xo : Vec F S3072x16 .f32) :
    out2_B_2 c i a2 h2 a3 h3 a4 h4 hc x0 x1 xo = k2_pay2 x0 x1 xo := by
  unfold out2_B_2
  rw [View.read_writes_eq_canon _ _ _ (cover2_B_2 c i a2 h2 a3 h3 a4 h4 hc x0 x1 xo)]
  unfold kernelRun2_B
  dsimp only
  sl_unfold_words
  rw [View.canon_unit_zero origin]
  simp only [View.readAt_eq_ld, h2.read_unread, h3.read_unread, h4.read_unread, View.ld_unit_zero (S := S512x3072) origin,
    View.ld_unit_zero (S := S512x16) origin, View.ld_unit_zero (S := S3072x16) origin]

/-- A resetting point stores the zero block, reads it back, and leaves the payload of the two operand blocks and the zero block. -/
theorem reset_value (c : Dev nD) (i : grid2.Coords) (a2 : Memref sig .tc .vmem S512x3072 .f32) (h2 : a2.IsWhole)
    (a3 : Memref sig .tc .vmem S512x16 .f32) (h3 : a3.IsWhole) (a4 : Memref sig .tc .vmem S3072x16 .f32) (h4 : a4.IsWhole)
    (hc : cond2_0 i) (x0 : Vec F S512x3072 .f32) (x1 : Vec F S512x16 .f32) :
    out2_A_2 c i a2 h2 a3 h3 a4 h4 hc x0 x1 = k2_pay2 x0 x1 (k2_pay1 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S3072x16) origin, View.readCov_unit_zero (S := S3072x16) _ origin]
  simp only [View.readAt_eq_ld, h2.read_unread, h3.read_unread, View.ld_unit_zero (S := S512x3072) origin,
    View.ld_unit_zero (S := S512x16) origin, View.ld_unit_zero (S := S3072x16) origin, View.readCov_unit_zero (S := S3072x16) _ origin]

end Pieces

section Payload

/-- The zero block is zero at every entry (over the extended reals). -/
theorem zero_block_apply (j : S3072x16.Idx) : (k2_pay1 (F := Ideal)) j = 0 := by
  unfold k2_pay1
  exact Ideal.ofBits_zero_f32

/-- Entry (p, q) of the payload: the old entry plus the sum over the 512 rows k of the two operand blocks of
    `x0 (k, p) * x1 (k, q)` (over the extended reals the narrowing of the operands changes nothing). -/
theorem payload_apply (x0 : Vec Ideal S512x3072 .f32) (x1 : Vec Ideal S512x16 .f32) (xo : Vec Ideal S3072x16 .f32)
    (p : Fin 3072) (q : Fin 16) :
    k2_pay2 (F := Ideal) x0 x1 xo (ix2 p q) = xo (ix2 p q) + ∑ k : Fin 512, x0 (ix2 k p) * x1 (ix2 k q) := by
  unfold k2_pay2
  refine (addf_apply _ _ (ix2 p q)).trans ?_
  rw [shapeCast_self, shapeCast_self]
  refine congrArg (fun z => xo (ix2 p q) + z) ?_
  exact Cert.LibTransposedDot.matmul_zero_apply dot_S512x3072_S512x16_S3072x16_0_0_1_1_n_n rfl rfl rfl rfl rfl rfl none _ _ p q

end Payload

section Tiles
open Finset

/-- `T` consecutive tiles of `K` naturals are the first `T * K` naturals. -/
theorem sum_tiles_range {β : Type*} [AddCommMonoid β] (K : ℕ) (g : ℕ → β) :
    ∀ T : ℕ, ∑ s ∈ range T, ∑ k ∈ range K, g (K * s + k) = ∑ i ∈ range (T * K), g i
  | 0 => by simp
  | T + 1 => by
    rw [Finset.sum_range_succ, sum_tiles_range K g T, Nat.succ_mul, Finset.sum_range_add, Nat.mul_comm K T]

/-- The 24 tiles of 512 rows are the 12288 rows. -/
theorem sum_row_tiles {β : Type*} [AddCommMonoid β] (g : ℕ → β) :
    ∑ s ∈ range 24, ∑ k : Fin 512, g (512 * s + k.val) = ∑ i : Fin 12288, g i.val := by
  rw [Fin.sum_univ_eq_sum_range (fun i => g i) 12288]
  have e : ∀ s : ℕ, ∑ k : Fin 512, g (512 * s + k.val) = ∑ k ∈ range 512, g (512 * s + k) :=
    fun s => Fin.sum_univ_eq_sum_range (fun k => g (512 * s + k)) 512
  rw [Finset.sum_congr rfl fun s _ => e s]
  exact sum_tiles_range 512 g 24

end Tiles

/-- The block indices of the three windows at point `t`: the left operand's block is (t % 24, t / 24), the right operand's
    (t % 24, 0), the result's (t / 24, 0). -/
theorem block_index : ∀ t : Fin cfg2.N,
    win2_0.index t (0 : Fin 2) = t.val % 24 ∧ win2_0.index t (1 : Fin 2) = t.val / 24
    ∧ win2_1.index t (0 : Fin 2) = t.val % 24 ∧ win2_1.index t (1 : Fin 2) = 0
    ∧ win2_2.index t (0 : Fin 2) = t.val / 24 ∧ win2_2.index t (1 : Fin 2) = 0 :=
  (by decide +kernel : ∀ t : Fin grid2.N, _)

/-- An index of the array is in point `t`'s result block iff each coordinate is in the block's range on its axis. -/
theorem mem_out_block (t : Fin cfg2.N) (i : S12288x16.Idx) :
    i ∈ ((cfg2.win 2).blk t).view.set
      ↔ ∀ a : Fin 2, win2_2.index t a * S3072x16.size a ≤ (i a).val ∧ (i a).val < win2_2.index t a * S3072x16.size a + S3072x16.size a := by
  show i ∈ ((View.whole main_v30).slice (win2_2.rect t)).set ↔ _
  rw [View.set_slice_whole, Rect.mem_set_unit]
  exact Iff.rfl

/-- Row `r` of the array is written back by the point that closes the run of the row's tile: point 24·(r / 3072) + 23. -/
theorem covered (i : S12288x16.Idx) :
    ∃ t : Fin cfg2.N, (cfg2.win 2).flush t = true ∧ i ∈ ((cfg2.win 2).blk t).view.set := by
  have hN : cfg2.N = 96 := N_2
  have h0 : (i 0).val < 12288 := (i 0).isLt
  have h1 : (i 1).val < 16 := (i 1).isLt
  have ht : 24 * ((i 0).val / 3072) + 23 < cfg2.N := by omega
  refine ⟨⟨24 * ((i 0).val / 3072) + 23, ht⟩, (flush2_2 _).mpr (by dsimp only; omega), ?_⟩
  rw [mem_out_block]
  obtain ⟨-, -, -, -, e0, e1⟩ := block_index ⟨24 * ((i 0).val / 3072) + 23, ht⟩
  dsimp only at e0 e1
  intro a
  match a with
  | ⟨0, _⟩ =>
    show win2_2.index ⟨24 * ((i 0).val / 3072) + 23, ht⟩ (0 : Fin 2) * 3072 ≤ (i 0).val
      ∧ (i 0).val < win2_2.index ⟨24 * ((i 0).val / 3072) + 23, ht⟩ (0 : Fin 2) * 3072 + 3072
    rw [e0]; omega
  | ⟨1, _⟩ =>
    show win2_2.index ⟨24 * ((i 0).val / 3072) + 23, ht⟩ (1 : Fin 2) * 16 ≤ (i 1).val
      ∧ (i 1).val < win2_2.index ⟨24 * ((i 0).val / 3072) + 23, ht⟩ (1 : Fin 2) * 16 + 16
    rw [e1]; omega

variable (V : (c : Dev nD) → (b : Ref sig .tc) → Buf (Elt Ideal) ((c : Thread nD τ).loc b))

/-- The left operand array at natural-number coordinates (zero outside the array). -/
def lhsAt (c : Dev nD) (r s : ℕ) : EReal :=
  if h : r < 12288 ∧ s < 12288 then (V c main_arg0 : S12288x12288.Idx → EReal) (ix2 ⟨r, h.1⟩ ⟨s, h.2⟩) else 0

/-- The right operand array at natural-number coordinates (zero outside the array). -/
def rhsAt (c : Dev nD) (r s : ℕ) : EReal :=
  if h : r < 12288 ∧ s < 16 then (V c main_v29 : S12288x16.Idx → EReal) (ix2 ⟨r, h.1⟩ ⟨s, h.2⟩) else 0

/-- Entry (k, p) of the left operand's block at point `t` is the array's entry (512·(t % 24) + k, 3072·(t / 24) + p). -/
theorem lhs_block_apply (c : Dev nD) (t : Fin cfg2.N) (k : Fin 512) (p : Fin 3072) :
    (iblk2 V c 0 t : Vec Ideal S512x3072 .f32) (ix2 k p)
      = lhsAt V c (512 * (t.val % 24) + k.val) (3072 * (t.val / 24) + p.val) := by
  have hN : t.val < 96 := lt_of_lt_of_eq t.isLt (show cfg2.N = 96 from N_2)
  have hk := k.isLt
  have hp := p.isLt
  have hr : 512 * (t.val % 24) + k.val < 12288 := by omega
  have hs : 3072 * (t.val / 24) + p.val < 12288 := by omega
  unfold lhsAt
  rw [dif_pos ⟨hr, hs⟩]
  obtain ⟨e0, e1, -⟩ := block_index t
  unfold iblk2
  show V c main_arg0 (((cfg2.win 0).blk t).view.emb (ix2 k p)) = V c main_arg0 (ix2 ⟨_, hr⟩ ⟨_, hs⟩)
  refine congrArg (V c main_arg0) ?_
  funext a
  apply Fin.ext
  match a with
  | ⟨0, _⟩ => show win2_0.index t (0 : Fin 2) * 512 + 1 * k.val = 512 * (t.val % 24) + k.val; rw [e0]; omega
  | ⟨1, _⟩ => show win2_0.index t (1 : Fin 2) * 3072 + 1 * p.val = 3072 * (t.val / 24) + p.val; rw [e1]; omega

/-- Entry (k, q) of the right operand's block at point `t` is the array's entry (512·(t % 24) + k, q). -/
theorem rhs_block_apply (c : Dev nD) (t : Fin cfg2.N) (k : Fin 512) (q : Fin 16) :
    (iblk2 V c 1 t : Vec Ideal S512x16 .f32) (ix2 k q) = rhsAt V c (512 * (t.val % 24) + k.val) q.val := by
  have hN : t.val < 96 := lt_of_lt_of_eq t.isLt (show cfg2.N = 96 from N_2)
  have hk := k.isLt
  have hr : 512 * (t.val % 24) + k.val < 12288 := by omega
  unfold rhsAt
  rw [dif_pos ⟨hr, q.isLt⟩]
  obtain ⟨-, -, e0, e1, -⟩ := block_index t
  unfold iblk2
  show V c main_v29 (((cfg2.win 1).blk t).view.emb (ix2 k q)) = V c main_v29 (ix2 ⟨_, hr⟩ ⟨q.val, q.isLt⟩)
  refine congrArg (V c main_v29) ?_
  funext a
  apply Fin.ext
  match a with
  | ⟨0, _⟩ => show win2_1.index t (0 : Fin 2) * 512 + 1 * k.val = 512 * (t.val % 24) + k.val; rw [e0]; omega
  | ⟨1, _⟩ => show win2_1.index t (1 : Fin 2) * 16 + 1 * q.val = q.val; rw [e1]; omega

/-- What point `n` adds to entry `i` of its result block: the products of its 512 rows. -/
def addend (c : Dev nD) (n : ℕ) (i : S3072x16.Idx) : EReal :=
  ∑ k : Fin 512, lhsAt V c (512 * (n % 24) + k.val) (3072 * (n / 24) + (i 0).val) * rhsAt V c (512 * (n % 24) + k.val) (i 1).val

/-- The payload at point `t` over the result block `acc`: each entry gains the point's addend. -/
theorem payload_block (c : Dev nD) (t : Fin cfg2.N) (acc : Vec Ideal S3072x16 .f32) (i : S3072x16.Idx) :
    k2_pay2 (F := Ideal) (iblk2 V c 0 t) (iblk2 V c 1 t) acc i = acc i + addend V c t.val i := by
  obtain ⟨p, q, rfl⟩ : ∃ (p : Fin 3072) (q : Fin 16), i = ix2 p q := ⟨i 0, i 1, eq_ix2 i⟩
  refine (payload_apply (iblk2 V c 0 t) (iblk2 V c 1 t) acc p q).trans ?_
  refine congrArg (fun z => acc (ix2 p q) + z) ?_
  unfold addend
  refine Finset.sum_congr rfl fun k _ => ?_
  rw [lhs_block_apply V c t k p, rhs_block_apply V c t k q]

/-- In the run of points 24·q … 24·q + 23 the point 24·q + s adds the products of the rows 512·s … 512·s + 511
    against the columns 3072·q + p of the left operand. -/
theorem addend_run (c : Dev nD) (q s : ℕ) (hs : s < 24) (p : Fin 3072) (r : Fin 16) :
    addend V c (24 * q + s) (ix2 p r)
      = ∑ k : Fin 512, lhsAt V c (512 * s + k.val) (3072 * q + p.val) * rhsAt V c (512 * s + k.val) r.val := by
  unfold addend
  have e0 : (24 * q + s) % 24 = s := by omega
  have e1 : (24 * q + s) / 24 = q := by omega
  rw [e0, e1]

/-- After the last point of the run 24·q … 24·q + 23 the result block holds, at each entry, the sum of the 24 addends
    (the reset's zero first). -/
theorem run_fold (c : Dev nD) (q : ℕ) (h : 24 * q + 23 < cfg2.N) (i : S3072x16.Idx) :
    outsAt2 V c (24 * q + 23) h i = 0 + ∑ s ∈ Finset.range (23 + 1), addend V c (24 * q + s) i := by
  have e := Pipeline.eq_accAt (fun n hn => outsAt2 V c n hn) 24
    (fun n hn => k2_pay2 (F := Ideal) (iblk2 V c 0 ⟨n, hn⟩) (iblk2 V c 1 ⟨n, hn⟩) (k2_pay1 (F := Ideal)))
    (fun n hn acc => k2_pay2 (F := Ideal) (iblk2 V c 0 ⟨n, hn⟩) (iblk2 V c 1 ⟨n, hn⟩) acc)
    (fun n hn hm => (outsAt2_A V c ⟨n, hn⟩ hm).trans (reset_value (F := Ideal) c _ _ _ _ _ _ _ _ (iblk2 V c 0 ⟨n, hn⟩) (iblk2 V c 1 ⟨n, hn⟩)))
    (fun n hn hm => (outsAt2_B V c ⟨n + 1, hn⟩ hm).trans (step_value (F := Ideal) c _ _ _ _ _ _ _ _ (iblk2 V c 0 ⟨n + 1, hn⟩) (iblk2 V c 1 ⟨n + 1, hn⟩) _))
    q 23 (by omega) h
  refine (congrFun e i).trans ?_
  exact Pipeline.accAt_add_apply _ _ (fun _ => 0) (addend V c) (24 * q) 23
    (fun hb j => (payload_block V c ⟨24 * q, hb⟩ (k2_pay1 (F := Ideal)) j).trans (by rw [zero_block_apply]))
    (fun n hn acc j _ _ => payload_block V c ⟨n, hn⟩ acc j) 23 (le_refl _) h i

/-- Entry (p, r) of the result's block at point `t` sits in the array at (3072·(t / 24) + p, r). -/
theorem out_block_emb (t : Fin cfg2.N) (p : Fin 3072) (r : Fin 16) (h : 3072 * (t.val / 24) + p.val < 12288) :
    ((cfg2.win 2).blk t).view.emb (ix2 p r) = (ix2 ⟨3072 * (t.val / 24) + p.val, h⟩ r : S12288x16.Idx) := by
  obtain ⟨-, -, -, -, e0, e1⟩ := block_index t
  funext a
  apply Fin.ext
  match a with
  | ⟨0, _⟩ => show win2_2.index t (0 : Fin 2) * 3072 + 1 * p.val = 3072 * (t.val / 24) + p.val; rw [e0]; omega
  | ⟨1, _⟩ => show win2_2.index t (1 : Fin 2) * 16 + 1 * r.val = r.val; rw [e1]; omega

/-- What a flushing point writes back is its block of Aᵀ·Y: the point closes a run of 24 points whose addends are
    the 24 row tiles of the column sum. -/
theorem flushed_eq (c : Dev nD) (t : Fin cfg2.N) (hf : (cfg2.win 2).flush t = true) :
    (dat2 V c).flushed 2 t
      = ((cfg2.win 2).blk t).view.read (Elt Ideal) (Cert.GcnMath.atY (D := 16) (V c main_arg0) (V c main_v29)) := by
  have hN : cfg2.N = 96 := N_2
  have h23 : t.val % 24 = 23 := (flush2_2 t).mp hf
  obtain ⟨n, hn⟩ := t
  dsimp only at h23
  obtain ⟨q, rfl⟩ : ∃ q, n = 24 * q + 23 := ⟨n / 24, by omega⟩
  show (cfg2.win 2).cut (grid2.coords ⟨24 * q + 23, hn⟩) ((dat2 V c).after 2 ⟨24 * q + 23, hn⟩) = _
  rw [after2_2]
  funext j
  obtain ⟨p, r, rfl⟩ : ∃ (p : Fin 3072) (r : Fin 16), j = ix2 p r := ⟨j 0, j 1, eq_ix2 j⟩
  have hp := p.isLt
  have hq : (24 * q + 23) / 24 = q := by omega
  have hrow : 3072 * ((24 * q + 23) / 24) + p.val < 12288 := by omega
  show outsAt2 V c (24 * q + 23) hn (ix2 p r)
    = Cert.GcnMath.atY (D := 16) (V c main_arg0) (V c main_v29) (((cfg2.win 2).blk ⟨24 * q + 23, hn⟩).view.emb (ix2 p r))
  rw [out_block_emb ⟨24 * q + 23, hn⟩ p r hrow, Cert.GcnMath.atY_apply, run_fold V c q hn (ix2 p r), zero_add,
    Finset.sum_congr rfl fun s hs => addend_run V c q s (Finset.mem_range.mp hs) p r]
  refine (sum_row_tiles fun i => lhsAt V c i (3072 * q + p.val) * rhsAt V c i r.val).trans ?_
  refine Finset.sum_congr rfl fun i _ => ?_
  have hi := i.isLt
  unfold lhsAt rhsAt
  rw [dif_pos ⟨hi, by omega⟩, dif_pos ⟨hi, r.isLt⟩]
  have e : (⟨3072 * q + p.val, by omega⟩ : Fin 12288) = ⟨3072 * ((24 * q + 23) / 24) + p.val, hrow⟩ := Fin.ext (by show 3072 * q + p.val = 3072 * ((24 * q + 23) / 24) + p.val; omega)
  rw [e]

/-- After the launch's 96 grid points the result array holds Aᵀ·Y of the two operand arrays as the launch found them. -/
theorem final (c : Dev nD) :
    (dat2 V c).arrAt 2 cfg2.N = Cert.GcnMath.atY (D := 16) (V c main_arg0) (V c main_v29) :=
  (dat2 V c).arrAt_eq_of_cover 2 _ (flushed_eq V c) covered

end Cert.KernelIdeal.Region2

end
-- ==== Proof.KernelHost.lean ====
/-
  The contents of the kernel program's result buffer at the last boundary, read back through the host lines and the
  three launches to the argument arrays: it is `KFun.result` of them.
-/
import proofs.«127168_j18975165513738_1_alg».proof.Proof.Gen.KernelIdeal.Frame
import proofs.«127168_j18975165513738_1_alg».proof.Proof.KFun
import proofs.«127168_j18975165513738_1_alg».proof.Proof.Region0
import proofs.«127168_j18975165513738_1_alg».proof.Proof.Region1
import proofs.«127168_j18975165513738_1_alg».proof.Proof.Region2
import Idealize.ShloMosaic.Lib.StableHlo.Run

noncomputable section

namespace Cert.KernelIdeal.HostRead

open Cert.KernelIdeal Cert.KernelIdeal.Gen Idealize.ShloMosaic Idealize.ShloMosaic.TcCoe Idealize.SL.Sem
open Cert.GcnMath

/-! ## The argument arrays at a boundary -/

/-- The six arrays the program reads (adjacency, features, two weight matrices, two biases) held at given contents. -/
structure ArgsAt (W : Valuation τ sig (Elt Ideal)) (A : FVec Ideal S12288x12288 .f32) (x : FVec Ideal S12288x16 .f32)
    (w1 : FVec Ideal S16x256 .f32) (b1 : FVec Ideal S256 .f32) (w2 : FVec Ideal S256x16 .f32) (b2 : FVec Ideal S16 .f32) : Prop where
  a0 : W (Proc.devRef .tc main_arg0) = A
  a1 : W (Proc.devRef .tc main_arg1) = x
  a2 : W (Proc.devRef .tc main_arg2) = w1
  a3 : W (Proc.devRef .tc main_arg3) = b1
  a4 : W (Proc.devRef .tc main_arg4) = w2
  a5 : W (Proc.devRef .tc main_arg5) = b2

/-! ## Each stretch of host lines, from arbitrary contents `W`

A stretch writes only its own result buffers, so the arguments (and the normalisation vector `main_v8`, once it
exists) pass through it; what it computes is read as a function of the buffers it reads. -/

section Stretches

variable (W : Valuation τ sig (Elt Ideal))
variable {A : FVec Ideal S12288x12288 .f32} {x : FVec Ideal S12288x16 .f32} {w1 : FVec Ideal S16x256 .f32}
  {b1 : FVec Ideal S256 .f32} {w2 : FVec Ideal S256x16 .f32} {b2 : FVec Ideal S16 .f32}

/-! ### No stretch writes an argument -/

theorem args_ops0 (h : ArgsAt W A x w1 b1 w2 b2) : ArgsAt (StableHlo.after hostOps0 W) A x w1 b1 w2 b2 := by
  obtain ⟨h0, h1, h2, h3, h4, h5⟩ := h
  refine ⟨?_, ?_, ?_, ?_, ?_, ?_⟩ <;> after_results <;> assumption
theorem args_ops1 (h : ArgsAt W A x w1 b1 w2 b2) : ArgsAt (StableHlo.after hostOps1 W) A x w1 b1 w2 b2 := by
  obtain ⟨h0, h1, h2, h3, h4, h5⟩ := h
  refine ⟨?_, ?_, ?_, ?_, ?_, ?_⟩ <;> after_results <;> assumption
theorem args_ops1_1 (h : ArgsAt W A x w1 b1 w2 b2) : ArgsAt (StableHlo.after hostOps1_1 W) A x w1 b1 w2 b2 := by
  obtain ⟨h0, h1, h2, h3, h4, h5⟩ := h
  refine ⟨?_, ?_, ?_, ?_, ?_, ?_⟩ <;> after_results <;> assumption
theorem args_ops1_2 (h : ArgsAt W A x w1 b1 w2 b2) : ArgsAt (StableHlo.after hostOps1_2 W) A x w1 b1 w2 b2 := by
  obtain ⟨h0, h1, h2, h3, h4, h5⟩ := h
  refine ⟨?_, ?_, ?_, ?_, ?_, ?_⟩ <;> after_results <;> assumption
theorem args_ops2 (h : ArgsAt W A x w1 b1 w2 b2) : ArgsAt (StableHlo.after hostOps2 W) A x w1 b1 w2 b2 := by
  obtain ⟨h0, h1, h2, h3, h4, h5⟩ := h
  refine ⟨?_, ?_, ?_, ?_, ?_, ?_⟩ <;> after_results <;> assumption
theorem args_ops2_1 (h : ArgsAt W A x w1 b1 w2 b2) : ArgsAt (StableHlo.after hostOps2_1 W) A x w1 b1 w2 b2 := by
  obtain ⟨h0, h1, h2, h3, h4, h5⟩ := h
  refine ⟨?_, ?_, ?_, ?_, ?_, ?_⟩ <;> after_results <;> assumption
theorem args_ops2_2 (h : ArgsAt W A x w1 b1 w2 b2) : ArgsAt (StableHlo.after hostOps2_2 W) A x w1 b1 w2 b2 := by
  obtain ⟨h0, h1, h2, h3, h4, h5⟩ := h
  refine ⟨?_, ?_, ?_, ?_, ?_, ?_⟩ <;> after_results <;> assumption

/-! ### Nor the normalisation vector, after the stretch that forms it -/

theorem keep1_2_v8 : StableHlo.after hostOps1_2 W (Proc.devRef .tc main_v8) = W (Proc.devRef .tc main_v8) := by after_results
theorem keep2_v8 : StableHlo.after hostOps2 W (Proc.devRef .tc main_v8) = W (Proc.devRef .tc main_v8) := by after_results
theorem keep2_1_v8 : StableHlo.after hostOps2_1 W (Proc.devRef .tc main_v8) = W (Proc.devRef .tc main_v8) := by after_results
theorem keep2_2_v8 : StableHlo.after hostOps2_2 W (Proc.devRef .tc main_v8) = W (Proc.devRef .tc main_v8) := by after_results

/-! ### What each stretch computes -/

/-- The first stretch forms the all-ones column. -/
theorem ops0_v0 : StableHlo.after hostOps0 W (Proc.devRef .tc main_v0) = KFun.ones := by
  unfold KFun.ones
  after_results
  try rfl

/-- From the column sums Aᵀ·1 the second stretch forms the degree, and of it the positivity mask, the reciprocal
    square root and the zero the mask selects against. -/
theorem ops1_v6 (A : FVec Ideal S12288x12288 .f32) (h1 : W (Proc.devRef .tc main_v1) = atY A KFun.ones) :
    StableHlo.after hostOps1 W (Proc.devRef .tc main_v6)
      = cmpf .ogt (KFun.deg A) (broadcastInDim S12288 ![] bcast_S_S12288 (constant (F := Ideal) S_ .f32 0x00000000#32)) := by
  unfold KFun.deg
  after_results
  rw [h1]
  try rfl
theorem ops1_v7 (A : FVec Ideal S12288x12288 .f32) (h1 : W (Proc.devRef .tc main_v1) = atY A KFun.ones) :
    StableHlo.after hostOps1 W (Proc.devRef .tc main_v7) = Host.rsqrt (KFun.deg A) := by
  unfold KFun.deg
  after_results
  rw [h1]
  try rfl
theorem ops1_cst_2 : StableHlo.after hostOps1 W (Proc.devRef .tc main_cst_2) = constant (F := Ideal) S_ .f32 0x00000000#32 := by
  after_results
  try rfl

/-- The select: deg^(-1/2) where the degree is positive, zero elsewhere. -/
theorem ops1_1_v8 (dg : FVec Ideal S12288 .f32)
    (h6 : W (Proc.devRef .tc main_v6) = cmpf .ogt dg (broadcastInDim S12288 ![] bcast_S_S12288 (constant (F := Ideal) S_ .f32 0x00000000#32)))
    (h7 : W (Proc.devRef .tc main_v7) = Host.rsqrt dg)
    (hc : W (Proc.devRef .tc main_cst_2) = constant (F := Ideal) S_ .f32 0x00000000#32) :
    StableHlo.after hostOps1_1 W (Proc.devRef .tc main_v8) = KFun.dis dg := by
  unfold KFun.dis
  after_results
  simp only [StableHlo.TRef.ofBuf, StableHlo.TRef.toBuf, cast_eq]
  rw [h6, h7, hc]

/-- The first dense transform, and its rows scaled by the normalisation vector. -/
theorem ops1_2_v9 (x : FVec Ideal S12288x16 .f32) (w1 : FVec Ideal S16x256 .f32)
    (hx : W (Proc.devRef .tc main_arg1) = x) (hw : W (Proc.devRef .tc main_arg2) = w1) :
    StableHlo.after hostOps1_2 W (Proc.devRef .tc main_v9) = KFun.h1 x w1 := by
  unfold KFun.h1
  after_results
  rw [hx, hw]
theorem ops1_2_v12 (d : FVec Ideal S12288 .f32) (x : FVec Ideal S12288x16 .f32) (w1 : FVec Ideal S16x256 .f32)
    (hd : W (Proc.devRef .tc main_v8) = d) (hx : W (Proc.devRef .tc main_arg1) = x) (hw : W (Proc.devRef .tc main_arg2) = w1) :
    StableHlo.after hostOps1_2 W (Proc.devRef .tc main_v12) = mulf (KFun.col256 d) (KFun.h1 x w1) := by
  unfold KFun.h1 KFun.col256
  after_results
  rw [hd, hx, hw]

/-- The first layer's output from Aᵀ·(dis ⊙ h), h, dis and the bias. -/
theorem ops2_v24 (A : FVec Ideal S12288x12288 .f32) (d : FVec Ideal S12288 .f32) (h : FVec Ideal S12288x256 .f32) (b : FVec Ideal S256 .f32)
    (hd : W (Proc.devRef .tc main_v8) = d)
    (hY : W (Proc.devRef .tc main_v13) = atY A (mulf (KFun.col256 d) h))
    (hh : W (Proc.devRef .tc main_v9) = h)
    (hb : W (Proc.devRef .tc main_arg3) = b) :
    StableHlo.after hostOps2 W (Proc.devRef .tc main_v24) = KFun.lay1 A d h b := by
  unfold KFun.lay1 KFun.row256
  after_results
  rw [hd, hY, hh, hb]
  try rfl

/-- The rectifier. -/
theorem ops2_1_v25 (v : FVec Ideal S12288x256 .f32) (hv : W (Proc.devRef .tc main_v24) = v) :
    StableHlo.after hostOps2_1 W (Proc.devRef .tc main_v25) = KFun.relu v := by
  unfold KFun.relu
  after_results
  simp only [StableHlo.TRef.ofBuf, StableHlo.TRef.toBuf, cast_eq]
  rw [hv]

/-- The second dense transform, and its rows scaled by the normalisation vector. -/
theorem ops2_2_v26 (r : FVec Ideal S12288x256 .f32) (w2 : FVec Ideal S256x16 .f32)
    (hr : W (Proc.devRef .tc main_v25) = r) (hw : W (Proc.devRef .tc main_arg4) = w2) :
    StableHlo.after hostOps2_2 W (Proc.devRef .tc main_v26) = KFun.h2 r w2 := by
  unfold KFun.h2
  after_results
  rw [hr, hw]
theorem ops2_2_v29 (d : FVec Ideal S12288 .f32) (r : FVec Ideal S12288x256 .f32) (w2 : FVec Ideal S256x16 .f32)
    (hd : W (Proc.devRef .tc main_v8) = d) (hr : W (Proc.devRef .tc main_v25) = r) (hw : W (Proc.devRef .tc main_arg4) = w2) :
    StableHlo.after hostOps2_2 W (Proc.devRef .tc main_v29) = mulf (KFun.col16 d) (KFun.h2 r w2) := by
  unfold KFun.h2 KFun.col16
  after_results
  rw [hd, hr, hw]

/-- The last stretch: the second layer's output plus the skip connection, then the column-wise softmax. -/
theorem ops3_v53 (A : FVec Ideal S12288x12288 .f32) (d : FVec Ideal S12288 .f32) (h x : FVec Ideal S12288x16 .f32) (b : FVec Ideal S16 .f32)
    (hd : W (Proc.devRef .tc main_v8) = d)
    (hY : W (Proc.devRef .tc main_v30) = atY A (mulf (KFun.col16 d) h))
    (hh : W (Proc.devRef .tc main_v26) = h)
    (hb : W (Proc.devRef .tc main_arg5) = b)
    (hx : W (Proc.devRef .tc main_arg1) = x) :
    StableHlo.after hostOps3 W (Proc.devRef .tc main_v53) = KFun.softmax0 (addf (KFun.lay2 A d h b) x) := by
  unfold KFun.softmax0 KFun.expShift KFun.lay2 KFun.row16
  after_results_simp
  rw [hd, hY, hh, hb, hx]
  try rfl

end Stretches

/-! ## The boundaries of the program, one after another

With A, x, W₁, b₁, W₂, b₂ the launch contents of the six arguments: the degree pass leaves Aᵀ·1; the host lines
turn it into dis = deg^(-1/2); each layer's launch leaves Aᵀ·(dis ⊙ h) for that layer's dense transform h, and the
host lines after it complete the layer. A launch changes only its own three arrays, and of those the adjacency
matrix is only read. -/

section Boundaries

variable (m : (ℓ : Loc nD τ sig) → Buf (Elt Ideal) ℓ) (ρ : Dev nD → PrngReg) (c : Dev nD)

/-- The launch contents of the arguments. -/
abbrev aA : FVec Ideal S12288x12288 .f32 := m ((c.tc : Thread nD τ).loc main_arg0)
abbrev aX : FVec Ideal S12288x16 .f32 := m ((c.tc : Thread nD τ).loc main_arg1)
abbrev aW1 : FVec Ideal S16x256 .f32 := m ((c.tc : Thread nD τ).loc main_arg2)
abbrev aB1 : FVec Ideal S256 .f32 := m ((c.tc : Thread nD τ).loc main_arg3)
abbrev aW2 : FVec Ideal S256x16 .f32 := m ((c.tc : Thread nD τ).loc main_arg4)
abbrev aB2 : FVec Ideal S16 .f32 := m ((c.tc : Thread nD τ).loc main_arg5)

/-- The normalisation vector, the two dense transforms' values and the first layer's output, of the launch contents. -/
abbrev vD : FVec Ideal S12288 .f32 := KFun.dis (KFun.deg (aA m c))
abbrev vH1 : FVec Ideal S12288x256 .f32 := KFun.h1 (aX m c) (aW1 m c)
abbrev vL1 : FVec Ideal S12288x256 .f32 := KFun.lay1 (aA m c) (vD m c) (vH1 m c) (aB1 m c)
abbrev vH2 : FVec Ideal S12288x16 .f32 := KFun.h2 (KFun.relu (vL1 m c)) (aW2 m c)

/-! ### The arguments at every boundary -/

theorem args0 : ArgsAt (W0 m ρ c) (aA m c) (aX m c) (aW1 m c) (aB1 m c) (aW2 m c) (aB2 m c) := ⟨rfl, rfl, rfl, rfl, rfl, rfl⟩
theorem args1 : ArgsAt (W1 m ρ c) (aA m c) (aX m c) (aW1 m c) (aB1 m c) (aW2 m c) (aB2 m c) := args_ops0 _ (args0 m ρ c)
theorem args2 : ArgsAt (W2 m ρ c) (aA m c) (aX m c) (aW1 m c) (aB1 m c) (aW2 m c) (aB2 m c) :=
  ⟨((W2_arr m ρ c 0).trans (((dat0 (V1 m ρ) c).arrAt_in 0 rfl _).trans (A_eq0 (V1 m ρ) c 0))).trans (args1 m ρ c).a0,
   (W2_of_ne m ρ c main_arg1 (by decide)).trans (args1 m ρ c).a1,
   (W2_of_ne m ρ c main_arg2 (by decide)).trans (args1 m ρ c).a2,
   (W2_of_ne m ρ c main_arg3 (by decide)).trans (args1 m ρ c).a3,
   (W2_of_ne m ρ c main_arg4 (by decide)).trans (args1 m ρ c).a4,
   (W2_of_ne m ρ c main_arg5 (by decide)).trans (args1 m ρ c).a5⟩
theorem args3 : ArgsAt (W3 m ρ c) (aA m c) (aX m c) (aW1 m c) (aB1 m c) (aW2 m c) (aB2 m c) := args_ops1 _ (args2 m ρ c)
theorem args4 : ArgsAt (W4 m ρ c) (aA m c) (aX m c) (aW1 m c) (aB1 m c) (aW2 m c) (aB2 m c) := args_ops1_1 _ (args3 m ρ c)
theorem args5 : ArgsAt (W5 m ρ c) (aA m c) (aX m c) (aW1 m c) (aB1 m c) (aW2 m c) (aB2 m c) := args_ops1_2 _ (args4 m ρ c)
theorem args6 : ArgsAt (W6 m ρ c) (aA m c) (aX m c) (aW1 m c) (aB1 m c) (aW2 m c) (aB2 m c) :=
  ⟨((W6_arr m ρ c 0).trans (((dat1 (V5 m ρ) c).arrAt_in 0 rfl _).trans (A_eq1 (V5 m ρ) c 0))).trans (args5 m ρ c).a0,
   (W6_of_ne m ρ c main_arg1 (by decide)).trans (args5 m ρ c).a1,
   (W6_of_ne m ρ c main_arg2 (by decide)).trans (args5 m ρ c).a2,
   (W6_of_ne m ρ c main_arg3 (by decide)).trans (args5 m ρ c).a3,
   (W6_of_ne m ρ c main_arg4 (by decide)).trans (args5 m ρ c).a4,
   (W6_of_ne m ρ c main_arg5 (by decide)).trans (args5 m ρ c).a5⟩
theorem args7 : ArgsAt (W7 m ρ c) (aA m c) (aX m c) (aW1 m c) (aB1 m c) (aW2 m c) (aB2 m c) := args_ops2 _ (args6 m ρ c)
theorem args8 : ArgsAt (W8 m ρ c) (aA m c) (aX m c) (aW1 m c) (aB1 m c) (aW2 m c) (aB2 m c) := args_ops2_1 _ (args7 m ρ c)
theorem args9 : ArgsAt (W9 m ρ c) (aA m c) (aX m c) (aW1 m c) (aB1 m c) (aW2 m c) (aB2 m c) := args_ops2_2 _ (args8 m ρ c)
theorem args10 : ArgsAt (W10 m ρ c) (aA m c) (aX m c) (aW1 m c) (aB1 m c) (aW2 m c) (aB2 m c) :=
  ⟨((W10_arr m ρ c 0).trans (((dat2 (V9 m ρ) c).arrAt_in 0 rfl _).trans (A_eq2 (V9 m ρ) c 0))).trans (args9 m ρ c).a0,
   (W10_of_ne m ρ c main_arg1 (by decide)).trans (args9 m ρ c).a1,
   (W10_of_ne m ρ c main_arg2 (by decide)).trans (args9 m ρ c).a2,
   (W10_of_ne m ρ c main_arg3 (by decide)).trans (args9 m ρ c).a3,
   (W10_of_ne m ρ c main_arg4 (by decide)).trans (args9 m ρ c).a4,
   (W10_of_ne m ρ c main_arg5 (by decide)).trans (args9 m ρ c).a5⟩

/-! ### The degree pass and the normalisation vector -/

theorem W1_v0 : W1 m ρ c (Proc.devRef .tc main_v0) = KFun.ones := ops0_v0 _

/-- The first launch leaves the column sums of A. -/
theorem W2_v1 : W2 m ρ c (Proc.devRef .tc main_v1) = atY (aA m c) KFun.ones :=
  ((W2_arr m ρ c 2).trans (Region0.final (V1 m ρ) c)).trans (congrArg₂ (atY (D := 1)) (args1 m ρ c).a0 (W1_v0 m ρ c))

theorem W4_v8 : W4 m ρ c (Proc.devRef .tc main_v8) = vD m c :=
  ops1_1_v8 _ (KFun.deg (aA m c)) (ops1_v6 _ (aA m c) (W2_v1 m ρ c)) (ops1_v7 _ (aA m c) (W2_v1 m ρ c)) (ops1_cst_2 _)

/-! ### The first layer -/

theorem W5_v8 : W5 m ρ c (Proc.devRef .tc main_v8) = vD m c := (keep1_2_v8 _).trans (W4_v8 m ρ c)
theorem W5_v9 : W5 m ρ c (Proc.devRef .tc main_v9) = vH1 m c := ops1_2_v9 _ _ _ (args4 m ρ c).a1 (args4 m ρ c).a2
theorem W5_v12 : W5 m ρ c (Proc.devRef .tc main_v12) = mulf (KFun.col256 (vD m c)) (vH1 m c) :=
  ops1_2_v12 _ _ _ _ (W4_v8 m ρ c) (args4 m ρ c).a1 (args4 m ρ c).a2

theorem W6_v8 : W6 m ρ c (Proc.devRef .tc main_v8) = vD m c := (W6_of_ne m ρ c main_v8 (by decide)).trans (W5_v8 m ρ c)
theorem W6_v9 : W6 m ρ c (Proc.devRef .tc main_v9) = vH1 m c := (W6_of_ne m ρ c main_v9 (by decide)).trans (W5_v9 m ρ c)
/-- The second launch leaves Aᵀ·(dis ⊙ h₁). -/
theorem W6_v13 : W6 m ρ c (Proc.devRef .tc main_v13) = atY (aA m c) (mulf (KFun.col256 (vD m c)) (vH1 m c)) :=
  ((W6_arr m ρ c 2).trans (Region1.final (V5 m ρ) c)).trans (congrArg₂ (atY (D := 256)) (args5 m ρ c).a0 (W5_v12 m ρ c))

theorem W7_v8 : W7 m ρ c (Proc.devRef .tc main_v8) = vD m c := (keep2_v8 _).trans (W6_v8 m ρ c)
theorem W7_v24 : W7 m ρ c (Proc.devRef .tc main_v24) = vL1 m c :=
  ops2_v24 _ _ _ _ _ (W6_v8 m ρ c) (W6_v13 m ρ c) (W6_v9 m ρ c) (args6 m ρ c).a3

theorem W8_v8 : W8 m ρ c (Proc.devRef .tc main_v8) = vD m c := (keep2_1_v8 _).trans (W7_v8 m ρ c)
theorem W8_v25 : W8 m ρ c (Proc.devRef .tc main_v25) = KFun.relu (vL1 m c) := ops2_1_v25 _ _ (W7_v24 m ρ c)

/-! ### The second layer -/

theorem W9_v8 : W9 m ρ c (Proc.devRef .tc main_v8) = vD m c := (keep2_2_v8 _).trans (W8_v8 m ρ c)
theorem W9_v26 : W9 m ρ c (Proc.devRef .tc main_v26) = vH2 m c := ops2_2_v26 _ _ _ (W8_v25 m ρ c) (args8 m ρ c).a4
theorem W9_v29 : W9 m ρ c (Proc.devRef .tc main_v29) = mulf (KFun.col16 (vD m c)) (vH2 m c) :=
  ops2_2_v29 _ _ _ _ (W8_v8 m ρ c) (W8_v25 m ρ c) (args8 m ρ c).a4

theorem W10_v8 : W10 m ρ c (Proc.devRef .tc main_v8) = vD m c := (W10_of_ne m ρ c main_v8 (by decide)).trans (W9_v8 m ρ c)
theorem W10_v26 : W10 m ρ c (Proc.devRef .tc main_v26) = vH2 m c := (W10_of_ne m ρ c main_v26 (by decide)).trans (W9_v26 m ρ c)
/-- The third launch leaves Aᵀ·(dis ⊙ h₂). -/
theorem W10_v30 : W10 m ρ c (Proc.devRef .tc main_v30) = atY (aA m c) (mulf (KFun.col16 (vD m c)) (vH2 m c)) :=
  ((W10_arr m ρ c 2).trans (Region2.final (V9 m ρ) c)).trans (congrArg₂ (atY (D := 16)) (args9 m ρ c).a0 (W9_v29 m ρ c))

end Boundaries

variable (m : (ℓ : Loc nD τ sig) → Buf (Elt Ideal) ℓ) (ρ : Dev nD → PrngReg)

/-- The result buffer at the last boundary is the kernel's function of the launch contents of the arguments. -/
theorem W11_result (c : Dev nD) :
    W11 m ρ c (Proc.devRef .tc main_v53)
      = KFun.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  ops3_v53 _ (aA m c) (vD m c) (vH2 m c) (aX m c) (aB2 m c)
    (W10_v8 m ρ c) (W10_v30 m ρ c) (W10_v26 m ρ c) (args10 m ρ c).a5 (args10 m ρ c).a1

end Cert.KernelIdeal.HostRead

end
-- ==== Proof.Finite.lean ====
/-
  The precondition read back: every entry of each of the six float arguments the programs read is a real number.
-/
import proofs.«127168_j18975165513738_1_alg».proof.Pre_finite_inputs
import proofs.«127168_j18975165513738_1_alg».proof.Proof.Gen.Pre_finite_inputs
import proofs.«127168_j18975165513738_1_alg».proof.Proof.LibFiniteOps

noncomputable section

namespace Cert.Finite

open Cert.Pre_finite_inputs Cert.Pre_finite_inputs.Gen Idealize.ShloMosaic Idealize.ShloMosaic.FiniteOps

/-- The precondition is a conjunction of seven statements, one per argument, each saying "every entry's absolute
    value is below positive infinity". The conjunction is peeled from the outside in; the conjuncts of the first six
    arguments each give that the argument is all real. -/
theorem allReal_of_pre (a0 : FVec Ideal S12288x12288 .f32) (a1 : FVec Ideal S12288x16 .f32) (a2 : FVec Ideal S16x256 .f32)
    (a3 : FVec Ideal S256 .f32) (a4 : FVec Ideal S256x16 .f32) (a5 : FVec Ideal S16 .f32) (a6 : FVec Ideal S1 .f32)
    (h : Cert.Pre_finite_inputs.fn (F := Ideal) a0 a1 a2 a3 a4 a5 a6 = (fun _ => 1#1)) :
    AllReal a0 ∧ AllReal a1 ∧ AllReal a2 ∧ AllReal a3 ∧ AllReal a4 ∧ AllReal a5 := by
  have h0 := congrFun h ValueIdx.ix0
  dsimp only [Cert.Pre_finite_inputs.fn, Cert.Pre_finite_inputs.fn_part1] at h0
  -- the outermost conjunction: (arguments 0 to 5) and (argument 6)
  obtain ⟨h5, -⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨allReal_of_all_abs_lt_inf a0 _ _ _ _ e0, allReal_of_all_abs_lt_inf a1 _ _ _ _ e1,
    allReal_of_all_abs_lt_inf a2 _ _ _ _ e2, allReal_of_all_abs_lt_inf a3 _ _ _ _ e3,
    allReal_of_all_abs_lt_inf a4 _ _ _ _ e4, allReal_of_all_abs_lt_inf a5 _ _ _ _ e5⟩

end Cert.Finite

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LayerLaw.lean ====
/-
  One entry of a graph layer, over the extended reals.

  With A the adjacency matrix, I the identity, d the normalising vector and h a feature column, entry p of
  d ⊙ ((A + I)ᵀ · (d ⊙ h)) is  d_p · Σ_k (A(k,p) + [k = p]) · (d_k · h_k).  Multiplying the sum out over the identity
  leaves  d_p · Σ_i A(i,p) · (d_i · h_i)  +  (d_p · d_p) · h_p.  The step distributes a product over a sum, which the
  extended reals allow only away from the infinities: every entry is assumed real, the equation is then one of real
  numbers, and the coercion of a finite sum of reals is the sum of the coercions.
-/
import Idealize.ShloMosaic.PureOps.Ideal
import proofs.«127168_j18975165513738_1_alg».proof.Proof.LibFiniteOps

noncomputable section

namespace Cert.LayerLaw

open Idealize.ShloMosaic.FiniteOps
open scoped BigOperators

/-- The coercion of a finite sum of reals is the sum of the coercions. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Entry p of a layer: the sum over A + I multiplied out over the identity. -/
theorem layer_entry {ι : Type} [Fintype ι] [DecidableEq ι] (a d h : ι → EReal) (p : ι)
    (ha : ∀ i, IsReal (a i)) (hd : ∀ i, IsReal (d i)) (hh : ∀ i, IsReal (h i)) :
    d p * (∑ i, a i * (d i * h i)) + (d p * d p) * h p
      = d p * (∑ k, (a k + (if k = p then (1 : EReal) else 0)) * (d k * h k)) := by
  choose a' ha' using ha
  choose d' hd' using hd
  choose h' hh' using hh
  have e : ∀ k, (if k = p then (1 : EReal) else 0) = (((if k = p then (1 : ℝ) else 0) : ℝ) : EReal) := fun k => by
    split_ifs <;> simp
  simp only [ha', hd', hh', e, ← EReal.coe_mul, ← EReal.coe_add, coe_sum]
  congr 1
  simp only [add_mul, Finset.sum_add_distrib, ite_mul, one_mul, zero_mul, Finset.sum_ite_eq', Finset.mem_univ, if_true]
  ring

end Cert.LayerLaw

end
-- ==== Proof.DegEq.lean ====
/-
  The two degrees are one vector, and the reference's identity matrix entry by entry.
-/
import proofs.«127168_j18975165513738_1_alg».proof.Proof.KFun
import proofs.«127168_j18975165513738_1_alg».proof.Proof.Gen.ReferenceIdeal.Read
import proofs.«127168_j18975165513738_1_alg».proof.Proof.LibFiniteOps
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Idealize.ShloMosaic.FiniteOps

/-- The reference's identity matrix (an equality test of the row and column numbers, converted to a float): one on
    the diagonal, zero off it. -/
theorem eye_apply (k p : Fin 12288) :
    Cert.ReferenceIdeal.Read.val_main_v5 (F := Ideal) (ix2 k p) = if k = p then (1 : EReal) else 0 := by
  rw [Cert.ReferenceIdeal.Read.val_main_v5_apply, Cert.ReferenceIdeal.Read.val_main_v4_apply,
    Cert.ReferenceIdeal.Read.val_main_v3_apply, Cert.ReferenceIdeal.Read.val_main_v0_apply,
    Cert.ReferenceIdeal.Read.val_main_v1_apply, Cert.ReferenceIdeal.Read.val_main_v2_apply,
    Cert.ReferenceIdeal.Read.val_main_c_apply]
  -- the conversion of a one-bit word to a float is the word read as a natural number
  show (((IntOp.cmpi .eq (IntOp.addi (BitVec.ofNat 32 k.val) 0#32) (BitVec.ofNat 32 p.val)).toNat : ℝ) : EReal) = _
  by_cases hkp : k = p
  · subst hkp
    rw [if_pos rfl]
    have e : IntOp.cmpi .eq (IntOp.addi (BitVec.ofNat 32 k.val) 0#32) (BitVec.ofNat 32 k.val) = 1#1 :=
      IntOp.cmpi_eq.2 (by simp [IntOp.addi])
    rw [e]
    simp
  · rw [if_neg hkp]
    -- two numbers below 12288 that agree as 32-bit words agree
    have hne : ¬ IntOp.cmpi .eq (IntOp.addi (BitVec.ofNat 32 k.val) 0#32) (BitVec.ofNat 32 p.val) = 1#1 := by
      intro h1
      have e := congrArg BitVec.toNat (IntOp.cmpi_eq.1 h1)
      simp only [IntOp.addi, BitVec.add_zero, BitVec.toNat_ofNat] at e
      have hk : k.val < 12288 := k.isLt
      have hp : p.val < 12288 := p.isLt
      exact hkp (Fin.ext (by omega))
    rw [eq_zero_of_ne_one hne]
    simp

/-- The two degrees are one vector: the column sums of A plus one, against the column sums of A + I from zero. -/
theorem deg_eq (A : FVec Ideal Cert.KernelIdeal.S12288x12288 .f32) :
    Cert.KernelIdeal.KFun.deg A = Cert.ReferenceIdeal.Read.val_main_v7 (F := Ideal) A := by
  funext j
  obtain ⟨p, rfl⟩ : ∃ p : Fin 12288, j = ix1 p := ⟨j 0, eq_ix1 j⟩
  -- the right side: zero plus the column sum of A + I
  have hz : (FloatOps.ofBits .f32 0x00000000#32 : Ideal .f32) = (0 : EReal) := Ideal.ofBits_zero_f32
  rw [Cert.ReferenceIdeal.Read.val_main_v7_apply, Cert.ReferenceIdeal.Read.val_main_cst_apply, hz, zero_add]
  have hR : ∀ k : Fin 12288, Cert.ReferenceIdeal.Read.val_main_v6 (F := Ideal) A (Cert.ReferenceIdeal.Read.idx_main_v7 (ix1 p) k)
      = A (ix2 k p) + (if k = p then (1 : EReal) else 0) := by
    intro k
    have hi : Cert.ReferenceIdeal.Read.idx_main_v7 (ix1 p) k = ix2 k p := by
      funext a; match a with | ⟨0, _⟩ => rfl | ⟨1, _⟩ => rfl
    rw [hi, Cert.ReferenceIdeal.Read.val_main_v6_apply, eye_apply]
    rfl
  rw [Finset.sum_congr rfl (fun k _ => hR k), Finset.sum_add_distrib, Finset.sum_ite_eq' Finset.univ p (fun _ => (1 : EReal)),
    if_pos (Finset.mem_univ p)]
  -- the left side: the column sum of A times one, plus one
  unfold Cert.KernelIdeal.KFun.deg
  rw [addf_apply, shapeCast_apply _ _ (ix1 p) (ix2 p (0 : Fin 1))
    (by rw [Shape.rowMajor_val_two, Shape.rowMajor_val_one]; show p.val * 1 + 0 = p.val; omega),
    Cert.GcnMath.atY_apply]
  refine congrArg₂ (· + ·) (Finset.sum_congr rfl fun i _ => ?_) ?_
  · show A (ix2 i p) * Ideal.ofBits .f32 0x3F800000#32 = _
    rw [ofBits_one_f32, mul_one]
  · exact ofBits_one_f32

end Cert.Bridge

end
-- ==== Proof.Bridge.lean ====
/-
  The two programs compute one function of real arguments.

  Stage by stage. The degree is one vector on both sides (the column sums of A plus one; no finiteness is needed for
  that), so the normalising vector dis is one vector. A layer of the reference, dis ⊙ ((A + I)ᵀ · (dis ⊙ h)) + b, is the
  kernel's dis ⊙ (Aᵀ · (dis ⊙ h)) + dis² ⊙ h + b entry by entry: the sum over A + I multiplied out over the identity,
  an equation of real numbers (every entry is real: the inputs are, and sums, products, maxima of reals and the
  reciprocal square root of a positive real are). The dense transforms, the rectifier, the skip connection and the
  closing softmax are the same operations on both sides, applied to equal arguments.
-/
import proofs.«127168_j18975165513738_1_alg».proof.Proof.KFun
import proofs.«127168_j18975165513738_1_alg».proof.Proof.Gen.ReferenceIdeal.Read
import proofs.«127168_j18975165513738_1_alg».proof.Proof.LibFiniteOps
import proofs.«127168_j18975165513738_1_alg».proof.Proof.LibPlainDot
import proofs.«127168_j18975165513738_1_alg».proof.Proof.LayerLaw
import proofs.«127168_j18975165513738_1_alg».proof.Proof.DegEq
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Idealize.ShloMosaic.FiniteOps Cert.GcnMath
open scoped BigOperators

/-! ## Layout operations read at an entry -/

section Layout
variable {D : Nat}

/-- A per-node vector broadcast to a column and then across the features reads, at (p, q), the vector at p. -/
theorem col_apply (h1 : (⟨1, ![12288]⟩ : Shape).BroadcastsInDim ⟨2, ![12288, 1]⟩ (![0] : Fin 1 → Fin 2))
    (h2 : (⟨2, ![12288, 1]⟩ : Shape).BroadcastsInDim ⟨2, ![12288, D]⟩ (![0, 1] : Fin 2 → Fin 2))
    (d : (⟨1, ![12288]⟩ : Shape).Idx → EReal) (p : Fin 12288) (q : Fin D) :
    broadcastInDim ⟨2, ![12288, D]⟩ ![0, 1] h2 (broadcastInDim ⟨2, ![12288, 1]⟩ ![0] h1 d) (ix2 p q) = d (ix1 p) := by
  refine (broadcastInDim_apply ![0, 1] h2 _ (ix2 p q) (ix2 p (0 : Fin 1)) (fun a => ?_)).trans
    (broadcastInDim_apply ![0] h1 d (ix2 p (0 : Fin 1)) (ix1 p) (fun a => ?_))
  · match a with
    | ⟨0, _⟩ => show p.val = if (12288 : Nat) = 1 then 0 else p.val; rw [if_neg (by decide)]
    | ⟨1, _⟩ => show (0 : Nat) = if (1 : Nat) = 1 then 0 else q.val; rw [if_pos rfl]
  · match a with
    | ⟨0, _⟩ => show p.val = if (12288 : Nat) = 1 then 0 else p.val; rw [if_neg (by decide)]

/-- A per-feature vector broadcast to a row and then down the nodes reads, at (p, q), the vector at q. -/
theorem row_apply (h1 : (⟨1, ![D]⟩ : Shape).BroadcastsInDim ⟨2, ![1, D]⟩ (![1] : Fin 1 → Fin 2))
    (h2 : (⟨2, ![1, D]⟩ : Shape).BroadcastsInDim ⟨2, ![12288, D]⟩ (![0, 1] : Fin 2 → Fin 2))
    (b : (⟨1, ![D]⟩ : Shape).Idx → EReal) (p : Fin 12288) (q : Fin D) :
    broadcastInDim ⟨2, ![12288, D]⟩ ![0, 1] h2 (broadcastInDim ⟨2, ![1, D]⟩ ![1] h1 b) (ix2 p q) = b (ix1 q) := by
  have hq : q.val = if D = 1 then 0 else q.val := by
    by_cases hD : D = 1
    · rw [if_pos hD]; have := q.isLt; omega
    · rw [if_neg hD]
  refine (broadcastInDim_apply ![0, 1] h2 _ (ix2 p q) (ix2 (0 : Fin 1) q) (fun a => ?_)).trans
    (broadcastInDim_apply ![1] h1 b (ix2 (0 : Fin 1) q) (ix1 q) (fun a => ?_))
  · match a with
    | ⟨0, _⟩ => show (0 : Nat) = if (1 : Nat) = 1 then 0 else p.val; rw [if_pos rfl]
    | ⟨1, _⟩ => exact hq
  · match a with
    | ⟨0, _⟩ => exact hq

/-- The transpose of a square matrix at (p, k) is the matrix at (k, p). -/
theorem transpose_apply' (htr : (⟨2, ![12288, 12288]⟩ : Shape).Transposes [1, 0] ⟨2, ![12288, 12288]⟩)
    (X : (⟨2, ![12288, 12288]⟩ : Shape).Idx → EReal) (p k : Fin 12288) :
    transpose ⟨2, ![12288, 12288]⟩ [1, 0] X htr (ix2 p k) = X (ix2 k p) :=
  transpose_apply [1, 0] X htr (ix2 p k) (ix2 k p) (fun b => match b with
    | ⟨0, _⟩ => rfl
    | ⟨1, _⟩ => rfl)

/-! ## A layer, at any feature width -/

/-- The kernel's spelling of a layer, dis ⊙ (Aᵀ·(dis ⊙ h)) + dis² ⊙ h + b, is the reference's
    dis ⊙ ((A + E)ᵀ·(dis ⊙ h)) + b when E is the identity matrix and A, dis, h are real. -/
theorem layer_eq (dot : DotDims ⟨2, ![12288, 12288]⟩ ⟨2, ![12288, D]⟩ ⟨2, ![12288, D]⟩)
    (hlc : dot.lhsContracting = [1]) (hrc : dot.rhsContracting = [0])
    (hln : dot.lhsNonContracting = [0]) (hrn : dot.rhsNonContracting = [1])
    (hlb : dot.lhsBatch = []) (hrb : dot.rhsBatch = [])
    (htr : (⟨2, ![12288, 12288]⟩ : Shape).Transposes [1, 0] ⟨2, ![12288, 12288]⟩)
    (hc1 : (⟨1, ![12288]⟩ : Shape).BroadcastsInDim ⟨2, ![12288, 1]⟩ (![0] : Fin 1 → Fin 2))
    (hc2 : (⟨2, ![12288, 1]⟩ : Shape).BroadcastsInDim ⟨2, ![12288, D]⟩ (![0, 1] : Fin 2 → Fin 2))
    (hr1 : (⟨1, ![D]⟩ : Shape).BroadcastsInDim ⟨2, ![1, D]⟩ (![1] : Fin 1 → Fin 2))
    (hr2 : (⟨2, ![1, D]⟩ : Shape).BroadcastsInDim ⟨2, ![12288, D]⟩ (![0, 1] : Fin 2 → Fin 2))
    (A E : FVec Ideal ⟨2, ![12288, 12288]⟩ .f32) (d : FVec Ideal ⟨1, ![12288]⟩ .f32)
    (h : FVec Ideal ⟨2, ![12288, D]⟩ .f32) (b : FVec Ideal ⟨1, ![D]⟩ .f32)
    (hA : AllReal A) (hd : AllReal d) (hh : AllReal h)
    (hE : ∀ k p : Fin 12288, E (ix2 k p) = if k = p then (1 : EReal) else 0) :
    addf (addf (mulf (broadcastInDim ⟨2, ![12288, D]⟩ ![0, 1] hc2 (broadcastInDim ⟨2, ![12288, 1]⟩ ![0] hc1 d))
        (atY A (mulf (broadcastInDim ⟨2, ![12288, D]⟩ ![0, 1] hc2 (broadcastInDim ⟨2, ![12288, 1]⟩ ![0] hc1 d)) h)))
        (mulf (broadcastInDim ⟨2, ![12288, D]⟩ ![0, 1] hc2 (broadcastInDim ⟨2, ![12288, 1]⟩ ![0] hc1 (mulf d d))) h))
        (broadcastInDim ⟨2, ![12288, D]⟩ ![0, 1] hr2 (broadcastInDim ⟨2, ![1, D]⟩ ![1] hr1 b))
      = addf (mulf (broadcastInDim ⟨2, ![12288, D]⟩ ![0, 1] hc2 (broadcastInDim ⟨2, ![12288, 1]⟩ ![0] hc1 d))
          (Host.dotGeneral dot none (transpose ⟨2, ![12288, 12288]⟩ [1, 0] (addf A E) htr)
            (mulf (broadcastInDim ⟨2, ![12288, D]⟩ ![0, 1] hc2 (broadcastInDim ⟨2, ![12288, 1]⟩ ![0] hc1 d)) h)))
          (broadcastInDim ⟨2, ![12288, D]⟩ ![0, 1] hr2 (broadcastInDim ⟨2, ![1, D]⟩ ![1] hr1 b)) := by
  funext j
  obtain ⟨p, q, rfl⟩ : ∃ (p : Fin 12288) (q : Fin D), j = ix2 p q := ⟨j 0, j 1, eq_ix2 j⟩
  have hdot : ∀ (l : FVec Ideal ⟨2, ![12288, 12288]⟩ .f32) (r : FVec Ideal ⟨2, ![12288, D]⟩ .f32),
      Host.dotGeneral dot none l r (ix2 p q) = ∑ k : Fin 12288, l (ix2 p k) * r (ix2 k q) := fun l r =>
    Cert.LibPlainDot.dotGeneral_apply dot hlc hrc hln hrn hlb hrb none .single l r p q
  simp only [addf_apply, mulf_apply, hdot, atY_apply, col_apply hc1 hc2, row_apply hr1 hr2, transpose_apply' htr, hE]
  exact congrArg (· + b (ix1 q))
    (Cert.LayerLaw.layer_entry (fun i : Fin 12288 => A (ix2 i p)) (fun i : Fin 12288 => d (ix1 i))
      (fun i : Fin 12288 => h (ix2 i q)) p (fun i => hA _) (fun i => hd _) (fun i => hh _))

end Layout

/-! ## The stages are real -/

/-- Aᵀ·Y of real operands is real. -/
theorem atY_allReal {D : Nat} {A : (⟨2, ![12288, 12288]⟩ : Shape).Idx → EReal} {Y : (⟨2, ![12288, D]⟩ : Shape).Idx → EReal}
    (hA : AllReal A) (hY : AllReal Y) : AllReal (atY A Y) :=
  fun _ => IsReal.sum _ _ fun _ _ => (hA _).mul (hY _)

/-- The degree of a real adjacency matrix is real. -/
theorem deg_allReal (A : FVec Ideal Cert.KernelIdeal.S12288x12288 .f32) (hA : AllReal A) : AllReal (Cert.KernelIdeal.KFun.deg A) := by
  unfold Cert.KernelIdeal.KFun.deg Cert.KernelIdeal.KFun.ones
  exact AllReal.addf
    (AllReal.shapeCast (atY_allReal hA (AllReal.broadcastInDim (allReal_constant isPos_ofBits_one_f32.isReal) _ _)) _)
    (AllReal.broadcastInDim (allReal_constant isPos_ofBits_one_f32.isReal) _ _)

/-- The normalising vector of a real degree is real: where the degree is positive its reciprocal square root is a
    positive real, elsewhere the entry is zero. -/
theorem dis_allReal (dg : FVec Ideal Cert.KernelIdeal.S12288 .f32) (h : AllReal dg) : AllReal (Cert.KernelIdeal.KFun.dis dg) := fun i => by
  unfold Cert.KernelIdeal.KFun.dis
  rw [select_apply]
  by_cases hc : cmpf .ogt dg (broadcastInDim Cert.KernelIdeal.S12288 ![] Cert.KernelIdeal.Gen.bcast_S_S12288
      (constant (F := Ideal) Cert.KernelIdeal.S_ .f32 0x00000000#32)) i = 1#1
  · rw [hc, select_one]
    have hpos : (0 : EReal) < dg i := by
      have hc' : Ideal.cmp .ogt (dg i) (Ideal.ofBits .f32 0x00000000#32) = 1#1 := hc
      rw [Ideal.ofBits_zero_f32] at hc'
      by_contra hn
      simp [Ideal.cmp, hn] at hc'
    exact (IsPos.rsqrt (isPos_iff.2 ⟨h i, hpos⟩)).isReal
  · rw [eq_zero_of_ne_one hc, select_zero]
    exact isReal_ofBits_zero_f32

/-! ## Stage by stage -/

/-- The normalising vector is one vector on both sides. -/
theorem dis_eq (A : FVec Ideal Cert.KernelIdeal.S12288x12288 .f32) :
    Cert.KernelIdeal.KFun.dis (Cert.KernelIdeal.KFun.deg A) = Cert.ReferenceIdeal.Read.val_main_v11 (F := Ideal) A := by
  rw [deg_eq]
  rfl

/-- Layer one. -/
theorem lay1_eq (A : FVec Ideal Cert.KernelIdeal.S12288x12288 .f32) (x : FVec Ideal Cert.KernelIdeal.S12288x16 .f32)
    (W1 : FVec Ideal Cert.KernelIdeal.S16x256 .f32) (b1 : FVec Ideal Cert.KernelIdeal.S256 .f32)
    (hA : AllReal A) (hx : AllReal x) (hW1 : AllReal W1) :
    Cert.KernelIdeal.KFun.lay1 A (Cert.KernelIdeal.KFun.dis (Cert.KernelIdeal.KFun.deg A)) (Cert.KernelIdeal.KFun.h1 x W1) b1
      = Cert.ReferenceIdeal.Read.val_main_v23 (F := Ideal) A x W1 b1 := by
  have hd := dis_allReal _ (deg_allReal A hA)
  have hh : AllReal (Cert.KernelIdeal.KFun.h1 x W1) := AllReal.hostDotGeneral _ _ hx hW1
  refine (layer_eq (D := 256) Cert.ReferenceIdeal.dot_S12288x12288_S12288x256_S12288x256_1_0_0_1_n_n rfl rfl rfl rfl rfl rfl
    Cert.ReferenceIdeal.Gen.transposes_S12288x12288_S12288x12288_1_0 Cert.KernelIdeal.Gen.bcast_S12288_S12288x1_0
    Cert.KernelIdeal.Gen.bcast_S12288x1_S12288x256_0_1 Cert.KernelIdeal.Gen.bcast_S256_S1x256_1 Cert.KernelIdeal.Gen.bcast_S1x256_S12288x256_0_1
    A (Cert.ReferenceIdeal.Read.val_main_v5 (F := Ideal)) _ _ b1 hA hd hh eye_apply).trans ?_
  rw [dis_eq]
  rfl

/-- Layer two. -/
theorem lay2_eq (A : FVec Ideal Cert.KernelIdeal.S12288x12288 .f32) (h : FVec Ideal Cert.KernelIdeal.S12288x16 .f32) (b2 : FVec Ideal Cert.KernelIdeal.S16 .f32)
    (hA : AllReal A) (hh : AllReal h) :
    Cert.KernelIdeal.KFun.lay2 A (Cert.KernelIdeal.KFun.dis (Cert.KernelIdeal.KFun.deg A)) h b2
      = addf (mulf (Cert.KernelIdeal.KFun.col16 (Cert.ReferenceIdeal.Read.val_main_v11 (F := Ideal) A))
          (Host.dotGeneral (φ₁ := .f32) Cert.ReferenceIdeal.dot_S12288x12288_S12288x16_S12288x16_1_0_0_1_n_n none
            (Cert.ReferenceIdeal.Read.val_main_v27 (F := Ideal) A)
            (mulf (Cert.KernelIdeal.KFun.col16 (Cert.ReferenceIdeal.Read.val_main_v11 (F := Ideal) A)) h)))
          (Cert.KernelIdeal.KFun.row16 b2) := by
  have hd := dis_allReal _ (deg_allReal A hA)
  refine (layer_eq (D := 16) Cert.ReferenceIdeal.dot_S12288x12288_S12288x16_S12288x16_1_0_0_1_n_n rfl rfl rfl rfl rfl rfl
    Cert.ReferenceIdeal.Gen.transposes_S12288x12288_S12288x12288_1_0 Cert.KernelIdeal.Gen.bcast_S12288_S12288x1_0
    Cert.KernelIdeal.Gen.bcast_S12288x1_S12288x16_0_1 Cert.KernelIdeal.Gen.bcast_S16_S1x16_1 Cert.KernelIdeal.Gen.bcast_S1x16_S12288x16_0_1
    A (Cert.ReferenceIdeal.Read.val_main_v5 (F := Ideal)) _ h b2 hA hd hh eye_apply).trans ?_
  rw [dis_eq]
  rfl

/-- The values entering the softmax agree. -/
theorem logits_eq (A : FVec Ideal Cert.KernelIdeal.S12288x12288 .f32) (x : FVec Ideal Cert.KernelIdeal.S12288x16 .f32)
    (W1 : FVec Ideal Cert.KernelIdeal.S16x256 .f32) (b1 : FVec Ideal Cert.KernelIdeal.S256 .f32)
    (W2 : FVec Ideal Cert.KernelIdeal.S256x16 .f32) (b2 : FVec Ideal Cert.KernelIdeal.S16 .f32)
    (hA : AllReal A) (hx : AllReal x) (hW1 : AllReal W1) (hb1 : AllReal b1) (hW2 : AllReal W2) :
    Cert.KernelIdeal.KFun.logits A x W1 b1 W2 b2 = Cert.ReferenceIdeal.Read.val_main_v37 (F := Ideal) A x W1 b1 W2 b2 := by
  unfold Cert.KernelIdeal.KFun.logits
  rw [lay1_eq A x W1 b1 hA hx hW1]
  -- the rectified first layer, then the second dense transform: real
  have hv23 : AllReal (Cert.ReferenceIdeal.Read.val_main_v23 (F := Ideal) A x W1 b1) := by
    rw [← lay1_eq A x W1 b1 hA hx hW1]
    have hd := dis_allReal _ (deg_allReal A hA)
    have hh : AllReal (Cert.KernelIdeal.KFun.h1 x W1) := AllReal.hostDotGeneral _ _ hx hW1
    unfold Cert.KernelIdeal.KFun.lay1 Cert.KernelIdeal.KFun.col256 Cert.KernelIdeal.KFun.row256
    exact AllReal.addf (AllReal.addf
      (AllReal.mulf (AllReal.broadcastInDim (AllReal.broadcastInDim hd _ _) _ _)
        (atY_allReal hA (AllReal.mulf (AllReal.broadcastInDim (AllReal.broadcastInDim hd _ _) _ _) hh)))
      (AllReal.mulf (AllReal.broadcastInDim (AllReal.broadcastInDim (AllReal.mulf hd hd) _ _) _ _) hh))
      (AllReal.broadcastInDim (AllReal.broadcastInDim hb1 _ _) _ _)
  have hh2 : AllReal (Cert.KernelIdeal.KFun.h2 (Cert.KernelIdeal.KFun.relu (Cert.ReferenceIdeal.Read.val_main_v23 (F := Ideal) A x W1 b1)) W2) := by
    unfold Cert.KernelIdeal.KFun.h2 Cert.KernelIdeal.KFun.relu
    exact AllReal.hostDotGeneral _ _
      (AllReal.maximumf hv23 (AllReal.broadcastInDim (allReal_constant isReal_ofBits_zero_f32) _ _)) hW2
  rw [lay2_eq A _ b2 hA hh2]
  rfl

/-- The two programs' results agree. -/
theorem result_eq (A : FVec Ideal Cert.KernelIdeal.S12288x12288 .f32) (x : FVec Ideal Cert.KernelIdeal.S12288x16 .f32)
    (W1 : FVec Ideal Cert.KernelIdeal.S16x256 .f32) (b1 : FVec Ideal Cert.KernelIdeal.S256 .f32)
    (W2 : FVec Ideal Cert.KernelIdeal.S256x16 .f32) (b2 : FVec Ideal Cert.KernelIdeal.S16 .f32)
    (hA : AllReal A) (hx : AllReal x) (hW1 : AllReal W1) (hb1 : AllReal b1) (hW2 : AllReal W2) (hb2 : AllReal b2) :
    Cert.KernelIdeal.KFun.result A x W1 b1 W2 b2 = Cert.ReferenceIdeal.Read.val_main_v48 (F := Ideal) A x W1 b1 W2 b2 := by
  unfold Cert.KernelIdeal.KFun.result
  rw [logits_eq A x W1 b1 W2 b2 hA hx hW1 hb1 hW2]
  rfl

end Cert.Bridge

end
-- ==== Proof.lean ====
/-
  The certificate of a two-layer graph convolution with a column-wise softmax: a kernel that streams the adjacency
  matrix A three times through one tiled Aᵀ·Y launch (the degree, then each layer's aggregation) against a reference
  that forms A + I and multiplies by its transpose.

  Over the reals the two agree. The degree is the same sum: the column sums of A plus one, against the column sums of
  A + I. In a layer the reference's dis ⊙ ((A + I)ᵀ · (dis ⊙ h)) + b distributes over the identity into the kernel's
  dis ⊙ (Aᵀ · (dis ⊙ h)) + dis² ⊙ h + b; that step multiplies a sum through, which on the extended reals needs every
  entry real, and the precondition (all inputs finite) gives that: sums and products of reals are real, the reciprocal
  square root of a positive real is real, the larger of two reals is real. What follows the second layer (the skip
  connection and the softmax) is the same chain of operations on both sides and is never opened.

  The frames of the kernel's two programs are the generated ones; the reference's is its generated run with the result
  dropped; the kernel's idealized program is its own text read over the extended reals, so nothing is owed for it.
-/
import proofs.«127168_j18975165513738_1_alg».proof.Defs
import proofs.«127168_j18975165513738_1_alg».proof.Proof.Gen.Kernel
import proofs.«127168_j18975165513738_1_alg».proof.Proof.Gen.Kernel.Skeleton
import proofs.«127168_j18975165513738_1_alg».proof.Proof.Gen.Kernel.Launch
import proofs.«127168_j18975165513738_1_alg».proof.Proof.Gen.Kernel.Points
import proofs.«127168_j18975165513738_1_alg».proof.Proof.Gen.Kernel.Frame
import proofs.«127168_j18975165513738_1_alg».proof.Proof.Gen.KernelIdeal
import proofs.«127168_j18975165513738_1_alg».proof.Proof.Gen.KernelIdeal.Skeleton
import proofs.«127168_j18975165513738_1_alg».proof.Proof.Gen.KernelIdeal.Launch
import proofs.«127168_j18975165513738_1_alg».proof.Proof.Gen.KernelIdeal.Points
import proofs.«127168_j18975165513738_1_alg».proof.Proof.Gen.KernelIdeal.Frame
import proofs.«127168_j18975165513738_1_alg».proof.Proof.Gen.ReferenceIdeal
import proofs.«127168_j18975165513738_1_alg».proof.Proof.Gen.Pre_finite_inputs
import proofs.«127168_j18975165513738_1_alg».proof.Proof.Gen.ReferenceIdeal.Run
import proofs.«127168_j18975165513738_1_alg».proof.Proof.Gen.ReferenceIdeal.Read
import proofs.«127168_j18975165513738_1_alg».proof.Proof.KernelRun
import proofs.«127168_j18975165513738_1_alg».proof.Proof.KernelHost
import proofs.«127168_j18975165513738_1_alg».proof.Proof.Finite
import proofs.«127168_j18975165513738_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the kernel's function of the (agreeing, finite) arguments in their result arrays. -/
theorem algebraic : Cert.algebraic_KernelIdeal_ReferenceIdeal := by
  intro m ρ m' ρ' hpre hagree
  refine ⟨fun c => Cert.KernelIdeal.KFun.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostRead.W11_result m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨hA, hx, hW1, hb1, hW2, hb2⟩ := Cert.Finite.allReal_of_pre _ _ _ _ _ _ _ (hpre c)
    rw [Cert.ReferenceIdeal.Read.val_main_v48_eq, (hagree c).1, (hagree c).2.1, (hagree c).2.2.1, (hagree c).2.2.2.1,
      (hagree c).2.2.2.2.1, (hagree c).2.2.2.2.2.1]
    exact (Cert.Bridge.result_eq _ _ _ _ _ _ hA hx hW1 hb1 hW2 hb2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
